-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x250000 : Shape := ⟨2, ![2, 250000]⟩
abbrev S2x250000x16 : Shape := ⟨3, ![2, 250000, 16]⟩
abbrev S250000 : Shape := ⟨1, ![250000]⟩
abbrev S256x256 : Shape := ⟨2, ![256, 256]⟩
abbrev S256 : Shape := ⟨1, ![256]⟩
abbrev S272x256 : Shape := ⟨2, ![272, 256]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x250000x16 : S_.BroadcastsInDim S2x250000x16 (![] : Fin 0 → Fin S2x250000x16.rank)
  reducesTo_S2x250000x16_S_d0_1_2 : S2x250000x16.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S272x256 : S_.BroadcastsInDim S272x256 (![] : Fin 0 → Fin S272x256.rank)
  reducesTo_S272x256_S_d0_1 : S272x256.ReducesTo [0, 1] S_
  bcast_S_S1 : S_.BroadcastsInDim S1 (![] : Fin 0 → Fin S1.rank)
  reducesTo_S1_S_d0 : S1.ReducesTo [0] S_
  bcast_S_S2x250000 : S_.BroadcastsInDim S2x250000 (![] : Fin 0 → Fin S2x250000.rank)
  reducesTo_S2x250000_S_d0_1 : S2x250000.ReducesTo [0, 1] S_

variable [Facts]

def fn_part3 {F : FTy → Type} [FloatOps F] (main_arg1 : IVec S2x250000 32) (main_arg2 : IVec S2x250000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S2x250000 32 := broadcastInDim S2x250000 ![] bcast_S_S2x250000 main_c_20
  let main_v55 : IVec S2x250000 1 := cmpi .sge main_arg1 main_v54
  let main_c_21 : IVec S_ 32 := constantI S_ 32 50000#32
  let main_v56 : IVec S2x250000 32 := broadcastInDim S2x250000 ![] bcast_S_S2x250000 main_c_21
  let main_v57 : IVec S2x250000 1 := cmpi .slt main_arg1 main_v56
  let main_v58 : IVec S2x250000 1 := andi main_v55 main_v57
  let main_c_22 : IVec S_ 1 := constantI S_ 1 1#1
  let main_v59 : IVec S_ 1 := (fun x v => Host.reduce IntOp.andi x v reducesTo_S2x250000_S_d0_1 h_S_) main_v58 main_c_22
  let main_v60 : IVec S_ 1 := andi main_v53 main_v59
  let main_c_23 : IVec S_ 32 := constantI S_ 32 0#32
  let main_v61 : IVec S2x250000 32 := broadcastInDim S2x250000 ![] bcast_S_S2x250000 main_c_23
  let main_v62 : IVec S2x250000 1 := cmpi .sge main_arg2 main_v61
  let main_c_24 : IVec S_ 32 := constantI S_ 32 50000#32
  let main_v63 : IVec S2x250000 32 := broadcastInDim S2x250000 ![] bcast_S_S2x250000 main_c_24
  let main_v64 : IVec S2x250000 1 := cmpi .slt main_arg2 main_v63
  let main_v65 : IVec S2x250000 1 := andi main_v62 main_v64
  let main_c_25 : IVec S_ 1 := constantI S_ 1 1#1
  let main_v66 : IVec S_ 1 := (fun x v => Host.reduce IntOp.andi x v reducesTo_S2x250000_S_d0_1 h_S_) main_v65 main_c_25
  let main_v67 : IVec S_ 1 := andi main_v60 main_v66
  main_v67

def fn_part2 {F : FTy → Type} [FloatOps F] (main_arg1 : IVec S2x250000 32) (main_arg2 : IVec S2x250000 32) (main_arg11 : FVec F S272x256 .f32) (main_arg12 : FVec F S256 .f32) (main_arg13 : FVec F S1 .f32) (main_arg14 : FVec F S1 .f32) (main_v33 : IVec S_ 1) : IVec S_ 1 :=
  let main_v34 : FVec F S272x256 .f32 := Host.absf main_arg11
  let main_cst_12 : FVec F S_ .f32 := constant S_ .f32 0x7F800000#32
  let main_v35 : FVec F S272x256 .f32 := broadcastInDim S272x256 ![] bcast_S_S272x256 main_cst_12
  let main_v36 : IVec S272x256 1 := cmpf .olt main_v34 main_v35
  let main_c_13 : IVec S_ 1 := constantI S_ 1 1#1
  let main_v37 : IVec S_ 1 := (fun x v => Host.reduce IntOp.andi x v reducesTo_S272x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_arg1 main_arg2 main_v48 main_v49 main_v50

def fn_part1 {F : FTy → Type} [FloatOps F] (main_arg1 : IVec S2x250000 32) (main_arg2 : IVec S2x250000 32) (main_arg8 : FVec F S256 .f32) (main_arg9 : FVec F S272x256 .f32) (main_arg10 : FVec F S256 .f32) (main_arg11 : FVec F S272x256 .f32) (main_arg12 : FVec F S256 .f32) (main_arg13 : FVec F S1 .f32) (main_arg14 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S272x256 .f32 := Host.absf main_arg9
  let main_cst_8 : FVec F S_ .f32 := constant S_ .f32 0x7F800000#32
  let main_v25 : FVec F S272x256 .f32 := broadcastInDim S272x256 ![] bcast_S_S272x256 main_cst_8
  let main_v26 : IVec S272x256 1 := cmpf .olt main_v24 main_v25
  let main_c_9 : IVec S_ 1 := constantI S_ 1 1#1
  let main_v27 : IVec S_ 1 := (fun x v => Host.reduce IntOp.andi x v reducesTo_S272x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg2 main_arg11 main_arg12 main_arg13 main_arg14 main_v33

def fn {F : FTy → Type} [FloatOps F] (main_arg0 : FVec F S50000x256 .f32) (main_arg1 : IVec S2x250000 32) (main_arg2 : IVec S2x250000 32) (main_arg3 : FVec F S2x250000x16 .f32) (main_arg4 : FVec F S2x250000x16 .f32) (main_arg5 : IVec S250000 32) (main_arg6 : IVec S250000 32) (main_arg7 : FVec F S256x256 .f32) (main_arg8 : FVec F S256 .f32) (main_arg9 : FVec F S272x256 .f32) (main_arg10 : FVec F S256 .f32) (main_arg11 : FVec F S272x256 .f32) (main_arg12 : FVec F S256 .f32) (main_arg13 : FVec F S1 .f32) (main_arg14 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x250000x16 .f32 := Host.absf main_arg3
  let main_cst_0 : FVec F S_ .f32 := constant S_ .f32 0x7F800000#32
  let main_v5 : FVec F S2x250000x16 .f32 := broadcastInDim S2x250000x16 ![] bcast_S_S2x250000x16 main_cst_0
  let main_v6 : IVec S2x250000x16 1 := cmpf .olt main_v4 main_v5
  let main_c_1 : IVec S_ 1 := constantI S_ 1 1#1
  let main_v7 : IVec S_ 1 := (fun x v => Host.reduce IntOp.andi x v reducesTo_S2x250000x16_S_d0_1_2 h_S_) main_v6 main_c_1
  let main_v8 : IVec S_ 1 := andi main_v3 main_v7
  let main_v9 : FVec F S2x250000x16 .f32 := Host.absf main_arg4
  let main_cst_2 : FVec F S_ .f32 := constant S_ .f32 0x7F800000#32
  let main_v10 : FVec F S2x250000x16 .f32 := broadcastInDim S2x250000x16 ![] bcast_S_S2x250000x16 main_cst_2
  let main_v11 : IVec S2x250000x16 1 := cmpf .olt main_v9 main_v10
  let main_c_3 : IVec S_ 1 := constantI S_ 1 1#1
  let main_v12 : IVec S_ 1 := (fun x v => Host.reduce IntOp.andi x v reducesTo_S2x250000x16_S_d0_1_2 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg2 main_arg8 main_arg9 main_arg10 main_arg11 main_arg12 main_arg13 main_arg14 main_v13 main_v16
-- ==== Kernel.lean ====
abbrev S50000x256 : Shape := ⟨2, ![50000, 256]⟩
abbrev S2x250000 : Shape := ⟨2, ![2, 250000]⟩
abbrev S2x250000x16 : Shape := ⟨3, ![2, 250000, 16]⟩
abbrev S250000 : Shape := ⟨1, ![250000]⟩
abbrev S256x256 : Shape := ⟨2, ![256, 256]⟩
abbrev S256 : Shape := ⟨1, ![256]⟩
abbrev S272x256 : Shape := ⟨2, ![272, 256]⟩
abbrev S1 : Shape := ⟨1, ![1]⟩
abbrev S5000x256 : Shape := ⟨2, ![5000, 256]⟩
abbrev S1x256 : Shape := ⟨2, ![1, 256]⟩
abbrev S16x256 : Shape := ⟨2, ![16, 256]⟩
abbrev S1x250000 : Shape := ⟨2, ![1, 250000]⟩
abbrev S_ : Shape := ⟨0, ![]⟩
abbrev S250000x1 : Shape := ⟨2, ![250000, 1]⟩
abbrev S1x1 : Shape := ⟨2, ![1, 1]⟩
abbrev S250000x256 : Shape := ⟨2, ![250000, 256]⟩
abbrev S1x250000x16 : Shape := ⟨3, ![1, 250000, 16]⟩
abbrev S250000x16 : Shape := ⟨2, ![250000, 16]⟩
abbrev S252000x256 : Shape := ⟨2, ![252000, 256]⟩
abbrev S252000x16 : Shape := ⟨2, ![252000, 16]⟩
abbrev S4000x256 : Shape := ⟨2, ![4000, 256]⟩
abbrev S4000x16 : Shape := ⟨2, ![4000, 16]⟩

abbrev nBuf : Space → Nat
  | .hbm => 178
  | .vmem => 32
  | .smem => 0
  | _ => 0

abbrev hbmTy0_0 (i : Nat) : BufTy := match i % 128 with
  | 0 => ⟨S50000x256, .f32⟩
  | 1 => ⟨S2x250000, .i32⟩
  | 2 => ⟨S2x250000, .i32⟩
  | 3 => ⟨S2x250000x16, .f32⟩
  | 4 => ⟨S2x250000x16, .f32⟩
  | 5 => ⟨S250000, .i32⟩
  | 6 => ⟨S250000, .i32⟩
  | 7 => ⟨S256x256, .f32⟩
  | 8 => ⟨S256, .f32⟩
  | 9 => ⟨S272x256, .f32⟩
  | 10 => ⟨S256, .f32⟩
  | 11 => ⟨S272x256, .f32⟩
  | 12 => ⟨S256, .f32⟩
  | 13 => ⟨S1, .f32⟩
  | 14 => ⟨S1, .f32⟩
  | 15 => ⟨S50000x256, .f32⟩
  | 16 => ⟨S256x256, .f32⟩
  | 17 => ⟨S16x256, .f32⟩
  | 18 => ⟨S1x250000, .i32⟩
  | 19 => ⟨S250000, .i32⟩
  | 20 => ⟨S_, .i32⟩
  | 21 => ⟨S250000, .i32⟩
  | 22 => ⟨S250000, .i1⟩
  | 23 => ⟨S_, .i32⟩
  | 24 => ⟨S250000, .i32⟩
  | 25 => ⟨S250000, .i32⟩
  | 26 => ⟨S250000, .i32⟩
  | 27 => ⟨S250000x1, .i32⟩
  | 28 => ⟨S1, .i32⟩
  | 29 => ⟨S_, .i32⟩
  | 30 => ⟨S250000x1, .i32⟩
  | 31 => ⟨S250000x1, .i1⟩
  | 32 => ⟨S1x1, .i32⟩
  | 33 => ⟨S250000x1, .i32⟩
  | 34 => ⟨S250000x1, .i1⟩
  | 35 => ⟨S250000x1, .i1⟩
  | 36 => ⟨S_, .i1⟩
  | 37 => ⟨S250000, .i1⟩
  | 38 => ⟨S250000x256, .f32⟩
  | 39 => ⟨S250000x256, .i1⟩
  | 40 => ⟨S_, .f32⟩
  | 41 => ⟨S250000x256, .f32⟩
  | 42 => ⟨S250000x256, .f32⟩
  | 43 => ⟨S1x250000, .i32⟩
  | 44 => ⟨S250000, .i32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S1, .i32⟩
  | 54 => ⟨S_, .i32⟩
  | 55 => ⟨S250000x1, .i32⟩
  | 56 => ⟨S250000x1, .i1⟩
  | 57 => ⟨S1x1, .i32⟩
  | 58 => ⟨S250000x1, .i32⟩
  | 59 => ⟨S250000x1, .i1⟩
  | 60 => ⟨S250000x1, .i1⟩
  | 61 => ⟨S_, .i1⟩
  | 62 => ⟨S250000, .i1⟩
  | 63 => ⟨S250000x256, .f32⟩
  | 64 => ⟨S250000x256, .i1⟩
  | 65 => ⟨S_, .f32⟩
  | 66 => ⟨S250000x256, .f32⟩
  | 67 => ⟨S250000x256, .f32⟩
  | 68 => ⟨S1x250000x16, .f32⟩
  | 69 => ⟨S250000x16, .f32⟩
  | 70 => ⟨S1x250000x16, .f32⟩
  | 71 => ⟨S250000x16, .f32⟩
  | 72 => ⟨S_, .i32⟩
  | 73 => ⟨S_, .f32⟩
  | 74 => ⟨S252000x256, .f32⟩
  | 75 => ⟨S_, .i32⟩
  | 76 => ⟨S_, .f32⟩
  | 77 => ⟨S252000x256, .f32⟩
  | 78 => ⟨S_, .i32⟩
  | 79 => ⟨S_, .f32⟩
  | 80 => ⟨S252000x16, .f32⟩
  | 81 => ⟨S_, .i32⟩
  | 82 => ⟨S_, .f32⟩
  | 83 => ⟨S252000x16, .f32⟩
  | 84 => ⟨S252000x256, .f32⟩
  | 85 => ⟨S250000x256, .f32⟩
  | 86 => ⟨S_, .f32⟩
  | 87 => ⟨S50000x256, .f32⟩
  | 88 => ⟨S250000x1, .i32⟩
  | 89 => ⟨S50000x256, .f32⟩
  | 90 => ⟨S_, .f32⟩
  | 91 => ⟨S1, .f32⟩
  | 92 => ⟨S1, .f32⟩
  | 93 => ⟨S1x1, .f32⟩
  | 94 => ⟨S50000x256, .f32⟩
  | 95 => ⟨S50000x256, .f32⟩
  | 96 => ⟨S50000x256, .f32⟩
  | 97 => ⟨S256x256, .f32⟩
  | 98 => ⟨S16x256, .f32⟩
  | 99 => ⟨S1x250000, .i32⟩
  | 100 => ⟨S250000, .i32⟩
  | 101 => ⟨S_, .i32⟩
  | 102 => ⟨S250000, .i32⟩
  | 103 => ⟨S250000, .i1⟩
  | 104 => ⟨S_, .i32⟩
  | 105 => ⟨S250000, .i32⟩
  | 106 => ⟨S250000, .i32⟩
  | 107 => ⟨S250000, .i32⟩
  | 108 => ⟨S250000x1, .i32⟩
  | 109 => ⟨S1, .i32⟩
  | 110 => ⟨S_, .i32⟩
  | 111 => ⟨S250000x1, .i32⟩
  | 112 => ⟨S250000x1, .i1⟩
  | 113 => ⟨S1x1, .i32⟩
  | 114 => ⟨S250000x1, .i32⟩
  | 115 => ⟨S250000x1, .i1⟩
  | 116 => ⟨S250000x1, .i1⟩
  | 117 => ⟨S_, .i1⟩
  | 118 => ⟨S250000, .i1⟩
  | 119 => ⟨S250000x256, .f32⟩
  | 120 => ⟨S250000x256, .i1⟩
  | 121 => ⟨S_, .f32⟩
  | 122 => ⟨S250000x256, .f32⟩
  | 123 => ⟨S250000x256, .f32⟩
  | 124 => ⟨S1x250000, .i32⟩
  | 125 => ⟨S250000, .i32⟩
  | 126 => ⟨S_, .i32⟩
  | 127 => ⟨S250000, .i32⟩
  | _ => ⟨S50000x256, .f32⟩

abbrev hbmTy0_1 (i : Nat) : BufTy := match i % 128 with
  | 0 => ⟨S250000, .i1⟩
  | 1 => ⟨S_, .i32⟩
  | 2 => ⟨S250000, .i32⟩
  | 3 => ⟨S250000, .i32⟩
  | 4 => ⟨S250000, .i32⟩
  | 5 => ⟨S250000x1, .i32⟩
  | 6 => ⟨S1, .i32⟩
  | 7 => ⟨S_, .i32⟩
  | 8 => ⟨S250000x1, .i32⟩
  | 9 => ⟨S250000x1, .i1⟩
  | 10 => ⟨S1x1, .i32⟩
  | 11 => ⟨S250000x1, .i32⟩
  | 12 => ⟨S250000x1, .i1⟩
  | 13 => ⟨S250000x1, .i1⟩
  | 14 => ⟨S_, .i1⟩
  | 15 => ⟨S250000, .i1⟩
  | 16 => ⟨S250000x256, .f32⟩
  | 17 => ⟨S250000x256, .i1⟩
  | 18 => ⟨S_, .f32⟩
  | 19 => ⟨S250000x256, .f32⟩
  | 20 => ⟨S250000x256, .f32⟩
  | 21 => ⟨S1x250000x16, .f32⟩
  | 22 => ⟨S250000x16, .f32⟩
  | 23 => ⟨S1x250000x16, .f32⟩
  | 24 => ⟨S250000x16, .f32⟩
  | 25 => ⟨S_, .i32⟩
  | 26 => ⟨S_, .f32⟩
  | 27 => ⟨S252000x256, .f32⟩
  | 28 => ⟨S_, .i32⟩
  | 29 => ⟨S_, .f32⟩
  | 30 => ⟨S252000x256, .f32⟩
  | 31 => ⟨S_, .i32⟩
  | 32 => ⟨S_, .f32⟩
  | 33 => ⟨S252000x16, .f32⟩
  | 34 => ⟨S_, .i32⟩
  | 35 => ⟨S_, .f32⟩
  | 36 => ⟨S252000x16, .f32⟩
  | 37 => ⟨S252000x256, .f32⟩
  | 38 => ⟨S250000x256, .f32⟩
  | 39 => ⟨S_, .f32⟩
  | 40 => ⟨S50000x256, .f32⟩
  | 41 => ⟨S250000x1, .i32⟩
  | 42 => ⟨S50000x256, .f32⟩
  | 43 => ⟨S_, .f32⟩
  | 44 => ⟨S1, .f32⟩
  | 45 => ⟨S1, .f32⟩
  | 46 => ⟨S1x1, .f32⟩
  | 47 => ⟨S50000x256, .f32⟩
  | 48 => ⟨S50000x256, .f32⟩
  | 49 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S4000x256, .f32⟩
  | .local _ .vmem, ⟨7, _⟩ => ⟨S4000x256, .f32⟩
  | .local _ .vmem, ⟨8, _⟩ => ⟨S4000x16, .f32⟩
  | .local _ .vmem, ⟨9, _⟩ => ⟨S4000x16, .f32⟩
  | .local _ .vmem, ⟨10, _⟩ => ⟨S4000x256, .f32⟩
  | .local _ .vmem, ⟨11, _⟩ => ⟨S4000x256, .f32⟩
  | .local _ .vmem, ⟨12, _⟩ => ⟨S4000x16, .f32⟩
  | .local _ .vmem, ⟨13, _⟩ => ⟨S4000x16, .f32⟩
  | .local _ .vmem, ⟨14, _⟩ => ⟨S256x256, .f32⟩
  | .local _ .vmem, ⟨15, _⟩ => ⟨S16x256, .f32⟩
  | .local _ .vmem, ⟨16, _⟩ => ⟨S256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x16, .f32⟩
  | .local _ .vmem, ⟨22, _⟩ => ⟨S4000x16, .f32⟩
  | .local _ .vmem, ⟨23, _⟩ => ⟨S4000x256, .f32⟩
  | .local _ .vmem, ⟨24, _⟩ => ⟨S4000x256, .f32⟩
  | .local _ .vmem, ⟨25, _⟩ => ⟨S4000x16, .f32⟩
  | .local _ .vmem, ⟨26, _⟩ => ⟨S4000x16, .f32⟩
  | .local _ .vmem, ⟨27, _⟩ => ⟨S256x256, .f32⟩
  | .local _ .vmem, ⟨28, _⟩ => ⟨S16x256, .f32⟩
  | .local _ .vmem, ⟨29, _⟩ => ⟨S256, .f32⟩
  | .local _ .vmem, ⟨30, _⟩ => ⟨S4000x256, .f32⟩
  | .local _ .vmem, ⟨31, _⟩ => ⟨S4000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_c : Ref sig .tc := ⟨.hbm, 72, rfl⟩
abbrev main_call2_v0 : Ref sig .tc := ⟨.hbm, 73, rfl⟩
abbrev main_v13 : Ref sig .tc := ⟨.hbm, 74, rfl⟩
abbrev main_c_0 : Ref sig .tc := ⟨.hbm, 75, rfl⟩
abbrev main_call3_v0 : Ref sig .tc := ⟨.hbm, 76, rfl⟩
abbrev main_v14 : Ref sig .tc := ⟨.hbm, 77, rfl⟩
abbrev main_c_1 : Ref sig .tc := ⟨.hbm, 78, rfl⟩
abbrev main_call4_v0 : Ref sig .tc := ⟨.hbm, 79, rfl⟩
abbrev main_v15 : Ref sig .tc := ⟨.hbm, 80, rfl⟩
abbrev main_c_2 : Ref sig .tc := ⟨.hbm, 81, rfl⟩
abbrev main_call5_v0 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_3 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c_1 : Ref sig .tc := ⟨.hbm, 109, rfl⟩
abbrev main_call6_c_2 : Ref sig .tc := ⟨.hbm, 110, rfl⟩
abbrev main_call6_v6 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_3 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_call6_cst : Ref sig .tc := ⟨.hbm, 121, rfl⟩
abbrev main_call6_v15 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_call7_c : Ref sig .tc := ⟨.hbm, 126, rfl⟩
abbrev main_call7_v0 : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_c_1 : Ref sig .tc := ⟨.hbm, 134, rfl⟩
abbrev main_call7_c_2 : Ref sig .tc := ⟨.hbm, 135, rfl⟩
abbrev main_call7_v6 : Ref sig .tc := ⟨.hbm, 136, rfl⟩
abbrev main_call7_v7 : Ref sig .tc := ⟨.hbm, 137, rfl⟩
abbrev main_call7_v8 : Ref sig .tc := ⟨.hbm, 138, rfl⟩
abbrev main_call7_v9 : Ref sig .tc := ⟨.hbm, 139, rfl⟩
abbrev main_call7_v10 : Ref sig .tc := ⟨.hbm, 140, rfl⟩
abbrev main_call7_v11 : Ref sig .tc := ⟨.hbm, 141, rfl⟩
abbrev main_call7_c_3 : Ref sig .tc := ⟨.hbm, 142, rfl⟩
abbrev main_call7_v12 : Ref sig .tc := ⟨.hbm, 143, rfl⟩
abbrev main_call7_v13 : Ref sig .tc := ⟨.hbm, 144, rfl⟩
abbrev main_call7_v14 : Ref sig .tc := ⟨.hbm, 145, rfl⟩
abbrev main_call7_cst : Ref sig .tc := ⟨.hbm, 146, rfl⟩
abbrev main_call7_v15 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_c_4 : Ref sig .tc := ⟨.hbm, 153, rfl⟩
abbrev main_call8_v0 : Ref sig .tc := ⟨.hbm, 154, rfl⟩
abbrev main_v40 : Ref sig .tc := ⟨.hbm, 155, rfl⟩
abbrev main_c_5 : Ref sig .tc := ⟨.hbm, 156, rfl⟩
abbrev main_call9_v0 : Ref sig .tc := ⟨.hbm, 157, rfl⟩
abbrev main_v41 : Ref sig .tc := ⟨.hbm, 158, rfl⟩
abbrev main_c_6 : Ref sig .tc := ⟨.hbm, 159, rfl⟩
abbrev main_call10_v0 : Ref sig .tc := ⟨.hbm, 160, rfl⟩
abbrev main_v42 : Ref sig .tc := ⟨.hbm, 161, rfl⟩
abbrev main_c_7 : Ref sig .tc := ⟨.hbm, 162, rfl⟩
abbrev main_call11_v0 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_8 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_cst_9 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![63], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![63], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  slices_S272x256_S256x256_0_0 : S272x256.Slices ![0, 0] S256x256
  slices_S272x256_S16x256_256_0 : S272x256.Slices ![256, 0] S16x256
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  reducesTo_S250000x1_S250000_d1 : S250000x1.ReducesTo [1] S250000
  h_S_ : 0 < S_.numel
  bcast_S250000_S250000x256_0 : S250000.BroadcastsInDim S250000x256 (![0] : Fin 1 → Fin S250000x256.rank)
  bcast_S_S250000x256 : S_.BroadcastsInDim S250000x256 (![] : Fin 0 → Fin S250000x256.rank)
  slices_S2x250000_S1x250000_1_0 : S2x250000.Slices ![1, 0] S1x250000
  slices_S2x250000x16_S1x250000x16_0_0_0 : S2x250000x16.Slices ![0, 0, 0] S1x250000x16
  shapeCasts_S1x250000x16_S250000x16 : S1x250000x16.ShapeCasts S250000x16
  slices_S2x250000x16_S1x250000x16_1_0_0 : S2x250000x16.Slices ![1, 0, 0] S1x250000x16
  pads_S250000x256_S252000x256_020000_000 : S250000x256.Pads (![0, 0] : Fin 2 → Nat) ![2000, 0] ![0, 0] S252000x256
  pads_S250000x16_S252000x16_020000_000 : S250000x16.Pads (![0, 0] : Fin 2 → Nat) ![2000, 0] ![0, 0] S252000x16
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  shapeCasts_S256x256_S256x256 : S256x256.ShapeCasts S256x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  broadcasts_S1x256_S4000x256 : S1x256.Broadcasts S4000x256
  slices_S252000x256_S250000x256_0_0 : S252000x256.Slices ![0, 0] S250000x256
  bcast_S_S50000x256 : S_.BroadcastsInDim S50000x256 (![] : Fin 0 → Fin S50000x256.rank)
  bcast_S_S1 : S_.BroadcastsInDim S1 (![] : Fin 0 → Fin S1.rank)
  bcast_S1x1_S50000x256_0_1 : S1x1.BroadcastsInDim S50000x256 (![0, 1] : Fin 2 → Fin S50000x256.rank)
  dot_S5000x256_S256x256_S5000x256_1_0_0_1_n_n_wf : DotDims.WF S5000x256 S256x256 S5000x256 [1] [0] [0] [1] [] []
  gather_S50000x256_S250000x1_S250000x256_1_0_n_n_0_1_1256_wf : GatherDims.WF S50000x256 S250000x1 S250000x256 [1] [0] [] [0] [] 1 ![1, 256]
  dot_S4000x256_S256x256_S4000x256_1_0_0_1_n_n_wf : DotDims.WF S4000x256 S256x256 S4000x256 [1] [0] [0] [1] [] []
  dot_S4000x16_S16x256_S4000x256_1_0_0_1_n_n_wf : DotDims.WF S4000x16 S16x256 S4000x256 [1] [0] [0] [1] [] []
  scatter_S50000x256_S250000x1_S250000x256_1_0_0_1_wf : ScatterDims.WF S50000x256 S250000x1 S250000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S252000x256.size a
  hwx1_0 : ∀ i : grid1.Coords, EltTy.bits .f32 = 32 ∨ (Rect.block (s := S252000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S252000x16.size a
  hwx1_1 : ∀ i : grid1.Coords, EltTy.bits .f32 = 32 ∨ (Rect.block (s := S252000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S252000x256.size a
  hwx1_2 : ∀ i : grid1.Coords, EltTy.bits .f32 = 32 ∨ (Rect.block (s := S252000x256) S4000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x16.size a ≤ S252000x16.size a
  hwx1_3 : ∀ i : grid1.Coords, EltTy.bits .f32 = 32 ∨ (Rect.block (s := S252000x16) S4000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x256.size a ≤ S16x256.size a
  hwx1_5 : ∀ i : grid1.Coords, EltTy.bits .f32 = 32 ∨ (Rect.block (s := S16x256) S16x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x256.size a ≤ S252000x256.size a
  hwx1_7 : ∀ i : grid1.Coords, EltTy.bits .f32 = 32 ∨ (Rect.block (s := S252000x256) S4000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S252000x256.size a
  hwx2_0 : ∀ i : grid2.Coords, EltTy.bits .f32 = 32 ∨ (Rect.block (s := S252000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x16.size a ≤ S252000x16.size a
  hwx2_1 : ∀ i : grid2.Coords, EltTy.bits .f32 = 32 ∨ (Rect.block (s := S252000x16) S4000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S252000x256.size a
  hwx2_2 : ∀ i : grid2.Coords, EltTy.bits .f32 = 32 ∨ (Rect.block (s := S252000x256) S4000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S252000x16.size a
  hwx2_3 : ∀ i : grid2.Coords, EltTy.bits .f32 = 32 ∨ (Rect.block (s := S252000x16) S4000x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x256.size a ≤ S16x256.size a
  hwx2_5 : ∀ i : grid2.Coords, EltTy.bits .f32 = 32 ∨ (Rect.block (s := S16x256) S16x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x256.size a ≤ S252000x256.size a
  hwx2_7 : ∀ i : grid2.Coords, EltTy.bits .f32 = 32 ∨ (Rect.block (s := S252000x256) S4000x256.size (cc2_transform_7 i) (hinb2_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S16x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S4000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S4000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S4000x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S16x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S4000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x250000 : Shape := ⟨2, ![2, 250000]⟩
abbrev S2x250000x16 : Shape := ⟨3, ![2, 250000, 16]⟩
abbrev S250000 : Shape := ⟨1, ![250000]⟩
abbrev S256x256 : Shape := ⟨2, ![256, 256]⟩
abbrev S256 : Shape := ⟨1, ![256]⟩
abbrev S272x256 : Shape := ⟨2, ![272, 256]⟩
abbrev S1 : Shape := ⟨1, ![1]⟩
abbrev S1x256 : Shape := ⟨2, ![1, 256]⟩
abbrev S_ : Shape := ⟨0, ![]⟩
abbrev S250000x256 : Shape := ⟨2, ![250000, 256]⟩
abbrev S1x250000 : Shape := ⟨2, ![1, 250000]⟩
abbrev S250000x1 : Shape := ⟨2, ![250000, 1]⟩
abbrev S1x250000x16 : Shape := ⟨3, ![1, 250000, 16]⟩
abbrev S250000x16 : Shape := ⟨2, ![250000, 16]⟩
abbrev S250000x272 : Shape := ⟨2, ![250000, 272]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S50000x256, .f32⟩
  | 1 => ⟨S2x250000, .i32⟩
  | 2 => ⟨S2x250000, .i32⟩
  | 3 => ⟨S2x250000x16, .f32⟩
  | 4 => ⟨S2x250000x16, .f32⟩
  | 5 => ⟨S250000, .i32⟩
  | 6 => ⟨S250000, .i32⟩
  | 7 => ⟨S256x256, .f32⟩
  | 8 => ⟨S256, .f32⟩
  | 9 => ⟨S272x256, .f32⟩
  | 10 => ⟨S256, .f32⟩
  | 11 => ⟨S272x256, .f32⟩
  | 12 => ⟨S256, .f32⟩
  | 13 => ⟨S1, .f32⟩
  | 14 => ⟨S1, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S250000x256, .f32⟩
  | 21 => ⟨S1x250000, .i32⟩
  | 22 => ⟨S250000, .i32⟩
  | 23 => ⟨S_, .i32⟩
  | 24 => ⟨S250000, .i32⟩
  | 25 => ⟨S250000, .i1⟩
  | 26 => ⟨S_, .i32⟩
  | 27 => ⟨S250000, .i32⟩
  | 28 => ⟨S250000, .i32⟩
  | 29 => ⟨S250000, .i32⟩
  | 30 => ⟨S250000x1, .i32⟩
  | 31 => ⟨S250000x256, .f32⟩
  | 32 => ⟨S1x250000x16, .f32⟩
  | 33 => ⟨S250000x16, .f32⟩
  | 34 => ⟨S250000x272, .f32⟩
  | 35 => ⟨S250000x256, .f32⟩
  | 36 => ⟨S1x256, .f32⟩
  | 37 => ⟨S250000x256, .f32⟩
  | 38 => ⟨S250000x256, .f32⟩
  | 39 => ⟨S250000x256, .f32⟩
  | 40 => ⟨S250000x256, .f32⟩
  | 41 => ⟨S_, .f32⟩
  | 42 => ⟨S250000x256, .f32⟩
  | 43 => ⟨S250000x256, .f32⟩
  | 44 => ⟨S_, .f32⟩
  | 45 => ⟨S250000x256, .f32⟩
  | 46 => ⟨S250000x256, .f32⟩
  | 47 => ⟨S250000x256, .f32⟩
  | 48 => ⟨S1x250000, .i32⟩
  | 49 => ⟨S250000, .i32⟩
  | 50 => ⟨S_, .i32⟩
  | 51 => ⟨S250000, .i32⟩
  | 52 => ⟨S250000, .i1⟩
  | 53 => ⟨S_, .i32⟩
  | 54 => ⟨S250000, .i32⟩
  | 55 => ⟨S250000, .i32⟩
  | 56 => ⟨S250000, .i32⟩
  | 57 => ⟨S250000x1, .i32⟩
  | 58 => ⟨S250000x256, .f32⟩
  | 59 => ⟨S1x250000x16, .f32⟩
  | 60 => ⟨S250000x16, .f32⟩
  | 61 => ⟨S250000x272, .f32⟩
  | 62 => ⟨S250000x256, .f32⟩
  | 63 => ⟨S1x256, .f32⟩
  | 64 => ⟨S250000x256, .f32⟩
  | 65 => ⟨S250000x256, .f32⟩
  | 66 => ⟨S250000x256, .f32⟩
  | 67 => ⟨S250000x256, .f32⟩
  | 68 => ⟨S_, .f32⟩
  | 69 => ⟨S250000x256, .f32⟩
  | 70 => ⟨S250000x256, .f32⟩
  | 71 => ⟨S_, .f32⟩
  | 72 => ⟨S250000x256, .f32⟩
  | 73 => ⟨S250000x256, .f32⟩
  | 74 => ⟨S250000x256, .f32⟩
  | 75 => ⟨S_, .f32⟩
  | 76 => ⟨S50000x256, .f32⟩
  | 77 => ⟨S250000x1, .i32⟩
  | 78 => ⟨S50000x256, .f32⟩
  | 79 => ⟨S_, .f32⟩
  | 80 => ⟨S1, .f32⟩
  | 81 => ⟨S1, .f32⟩
  | 82 => ⟨S1x1, .f32⟩
  | 83 => ⟨S50000x256, .f32⟩
  | 84 => ⟨S50000x256, .f32⟩
  | 85 => ⟨S50000x256, .f32⟩
  | 86 => ⟨S_, .f32⟩
  | 87 => ⟨S250000x256, .f32⟩
  | 88 => ⟨S1x250000, .i32⟩
  | 89 => ⟨S250000, .i32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000x256, .f32⟩
  | 99 => ⟨S1x250000x16, .f32⟩
  | 100 => ⟨S250000x16, .f32⟩
  | 101 => ⟨S250000x272, .f32⟩
  | 102 => ⟨S250000x256, .f32⟩
  | 103 => ⟨S1x256, .f32⟩
  | 104 => ⟨S250000x256, .f32⟩
  | 105 => ⟨S250000x256, .f32⟩
  | 106 => ⟨S250000x256, .f32⟩
  | 107 => ⟨S250000x256, .f32⟩
  | 108 => ⟨S_, .f32⟩
  | 109 => ⟨S250000x256, .f32⟩
  | 110 => ⟨S250000x256, .f32⟩
  | 111 => ⟨S_, .f32⟩
  | 112 => ⟨S250000x256, .f32⟩
  | 113 => ⟨S250000x256, .f32⟩
  | 114 => ⟨S250000x256, .f32⟩
  | 115 => ⟨S1x250000, .i32⟩
  | 116 => ⟨S250000, .i32⟩
  | 117 => ⟨S_, .i32⟩
  | 118 => ⟨S250000, .i32⟩
  | 119 => ⟨S250000, .i1⟩
  | 120 => ⟨S_, .i32⟩
  | 121 => ⟨S250000, .i32⟩
  | 122 => ⟨S250000, .i32⟩
  | 123 => ⟨S250000, .i32⟩
  | 124 => ⟨S250000x1, .i32⟩
  | 125 => ⟨S250000x256, .f32⟩
  | 126 => ⟨S1x250000x16, .f32⟩
  | 127 => ⟨S250000x16, .f32⟩
  | _ => ⟨S50000x256, .f32⟩

abbrev hbmTy0_1 (i : Nat) : BufTy := match i % 128 with
  | 0 => ⟨S250000x272, .f32⟩
  | 1 => ⟨S250000x256, .f32⟩
  | 2 => ⟨S1x256, .f32⟩
  | 3 => ⟨S250000x256, .f32⟩
  | 4 => ⟨S250000x256, .f32⟩
  | 5 => ⟨S250000x256, .f32⟩
  | 6 => ⟨S250000x256, .f32⟩
  | 7 => ⟨S_, .f32⟩
  | 8 => ⟨S250000x256, .f32⟩
  | 9 => ⟨S250000x256, .f32⟩
  | 10 => ⟨S_, .f32⟩
  | 11 => ⟨S250000x256, .f32⟩
  | 12 => ⟨S250000x256, .f32⟩
  | 13 => ⟨S250000x256, .f32⟩
  | 14 => ⟨S_, .f32⟩
  | 15 => ⟨S50000x256, .f32⟩
  | 16 => ⟨S250000x1, .i32⟩
  | 17 => ⟨S50000x256, .f32⟩
  | 18 => ⟨S_, .f32⟩
  | 19 => ⟨S1, .f32⟩
  | 20 => ⟨S1, .f32⟩
  | 21 => ⟨S1x1, .f32⟩
  | 22 => ⟨S50000x256, .f32⟩
  | 23 => ⟨S50000x256, .f32⟩
  | 24 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_14 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_16 : Ref sig .tc := ⟨.hbm, 135, rfl⟩
abbrev main_v102 : Ref sig .tc := ⟨.hbm, 136, rfl⟩
abbrev main_v103 : Ref sig .tc := ⟨.hbm, 137, rfl⟩
abbrev main_cst_17 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_19 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S250000x256 : S_.BroadcastsInDim S250000x256 (![] : Fin 0 → Fin S250000x256.rank)
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S2x250000x16_S1x250000x16_0_0_0 : S2x250000x16.Slices ![0, 0, 0] S1x250000x16
  shapeCasts_S1x250000x16_S250000x16 : S1x250000x16.ShapeCasts S250000x16
  concatenates_S250000x256_S250000x16_S250000x272_d1 : Shape.Concatenates [S250000x256, S250000x16] S250000x272 1
  bcast_S1x256_S250000x256_0_1 : S1x256.BroadcastsInDim S250000x256 (![0, 1] : Fin 2 → Fin S250000x256.rank)
  slices_S2x250000_S1x250000_1_0 : S2x250000.Slices ![1, 0] S1x250000
  slices_S2x250000x16_S1x250000x16_1_0_0 : S2x250000x16.Slices ![1, 0, 0] S1x250000x16
  bcast_S_S50000x256 : S_.BroadcastsInDim S50000x256 (![] : Fin 0 → Fin S50000x256.rank)
  bcast_S_S1 : S_.BroadcastsInDim S1 (![] : Fin 0 → Fin S1.rank)
  bcast_S1_S1x1_1 : S1.BroadcastsInDim S1x1 (![1] : Fin 1 → Fin S1x1.rank)
  bcast_S1x1_S50000x256_0_1 : S1x1.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S250000x1_S250000x256_1_0_n_n_0_1_1256_wf : GatherDims.WF S50000x256 S250000x1 S250000x256 [1] [0] [] [0] [] 1 ![1, 256]
  dot_S250000x272_S272x256_S250000x256_1_0_0_1_n_n_wf : DotDims.WF S250000x272 S272x256 S250000x256 [1] [0] [0] [1] [] []
  scatter_S50000x256_S250000x1_S250000x256_1_0_0_1_wf : ScatterDims.WF S50000x256 S250000x1 S250000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def dot_S250000x272_S272x256_S250000x256_1_0_0_1_n_n : DotDims S250000x272 S272x256 S250000x256 where
  lhsContracting := [1]
  rhsContracting := [0]
  lhsNonContracting := [0]
  rhsNonContracting := [1]
  lhsBatch := []
  rhsBatch := []
  wf := dot_S250000x272_S272x256_S250000x256_1_0_0_1_n_n_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf

class Facts : Prop extends Facts₀ where

variable [Facts]
-- ==== Proof.Spec.lean ====
/-
  The mathematics both programs compute, index by index on the extended reals.

  A dense layer sends row `r` of `x` to `∑ₖ x[r,k]·w[k,j] + b[j]`.  The message of one edge with end points
  `h0`, `h1` (rows of node features) and degree codes `d0`, `d1` is the product of two logistic gates, each the
  logistic function of a dense layer whose weight matrix is split in two by rows: the first 256 rows act on the node
  features, the last 16 on the degree code.
-/
import Idealize.ShloMosaic.PureOps.Ideal
import Idealize.ShloMosaic.Lib.ValueIdx

noncomputable section

namespace Cert.Spec

open Idealize.ShloMosaic Idealize.ShloMosaic.ValueIdx

/-- Rows of `x` against the columns of `w`, plus the bias vector. -/
def dense {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

/-- The gate's argument: the node-feature part, plus the degree-code part, plus the bias. -/
def gateArg {M : ℕ} (h : (⟨2, ![M, 256]⟩ : Shape).Idx → EReal) (d : (⟨2, ![M, 16]⟩ : Shape).Idx → EReal)
    (wh : (⟨2, ![256, 256]⟩ : Shape).Idx → EReal) (wd : (⟨2, ![16, 256]⟩ : Shape).Idx → EReal)
    (b : (⟨1, ![256]⟩ : Shape).Idx → EReal) : (⟨2, ![M, 256]⟩ : Shape).Idx → EReal :=
  fun i => (∑ k : Fin 256, h (ix2 (i 0) k) * wh (ix2 k (i 1))) + (∑ k : Fin 16, d (ix2 (i 0) k) * wd (ix2 k (i 1)))
    + b (ix1 (i 1))

/-- The message: the product of the two end points' logistic gates. -/
def msg {M : ℕ} (h0 : (⟨2, ![M, 256]⟩ : Shape).Idx → EReal) (d0 : (⟨2, ![M, 16]⟩ : Shape).Idx → EReal)
    (h1 : (⟨2, ![M, 256]⟩ : Shape).Idx → EReal) (d1 : (⟨2, ![M, 16]⟩ : Shape).Idx → EReal)
    (wh : (⟨2, ![256, 256]⟩ : Shape).Idx → EReal) (wd : (⟨2, ![16, 256]⟩ : Shape).Idx → EReal)
    (b : (⟨1, ![256]⟩ : Shape).Idx → EReal) : (⟨2, ![M, 256]⟩ : Shape).Idx → EReal :=
  fun i => Ideal.logistic (gateArg h0 d0 wh wd b i) * Ideal.logistic (gateArg h1 d1 wh wd b i)

end Cert.Spec

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«408056_j78039555768490_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Region0.lean ====
/-
  The first matrix-product region, read as one whole-array function.

  The region walks ten grid points. Point `t` holds rows `5000 t … 5000 t + 4999` of `x`, the whole `[256, 256]`
  weight and the whole bias vector, and writes back the `[5000, 256]` block whose entry `(p, q)` is
  `∑ₖ x[5000 t + p, k] · w[k, q] + b[q]`: the format narrowing of the operands is the identity on the extended
  reals, the matrix product into the zero accumulator is the sum along the contracted axis, and the bias vector viewed
  as a `[1, 256]` row and broadcast down the rows adds entry `q`. That block is block `t` of the dense layer of the
  three arrays, and the ten blocks tile the `[50000, 256]` output (row `r` lies in block `r / 5000`), so after the run
  the output array is the dense layer itself, whatever the arrays held when the region was entered.
-/
import proofs.«408056_j78039555768490_1_alg».proof.Proof.Gen.KernelIdeal.Frame
import proofs.«408056_j78039555768490_1_alg».proof.Proof.Spec
import proofs.«408056_j78039555768490_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Region0

/-- The kernel's dimension numbers are the plain ones: axis 1 of the left operand against axis 0 of the right. -/
theorem dot_plain : dot_S5000x256_S256x256_S5000x256_1_0_0_1_n_n = DotDims.plain 5000 256 256 := rfl

/-- The block's matrix product into the zero accumulator at `(p, q)`: the sum along the contracted axis. -/
theorem matmul_at (l : FVec Ideal S5000x256 .bf16) (r : FVec Ideal S256x256 .bf16) (p : Fin 5000) (q : Fin 256) :
    matmul dot_S5000x256_S256x256_S5000x256_1_0_0_1_n_n none l r (constant S5000x256 .f32 0x00000000#32) (ix2 p q)
      = ∑ k : Fin 256, l (ix2 p k) * r (ix2 k q) :=
  Cert.Lib.matmul_plain_zero_apply 5000 256 256 none l r (ix2 p q)

/-- The bias vector viewed as a `[1, 256]` row: entry `(0, q)` is entry `q` of the vector. -/
theorem bias_row_apply (v5 : Vec Ideal S256 .f32) (q : Fin 256) :
    shapeCast S1x256 v5 shapeCasts_S256_S1x256 (ix2 (0 : Fin 1) q) = v5 (ix1 q) :=
  shapeCast_apply v5 shapeCasts_S256_S1x256 _ _ (by
    rw [Shape.rowMajor_val_two, Shape.rowMajor_val_one]
    show q.val = 0 * 256 + q.val
    omega)

/-- The body's arithmetic at `(p, q)`: row `p` of the loaded block of `x` against column `q` of the weight, plus the
    bias entry `q`. Narrowing the operands' format is the identity on extended reals. -/
theorem pay_apply (v0 : Vec Ideal S5000x256 .f32) (v2 : Vec Ideal S256x256 .f32) (v5 : Vec Ideal S256 .f32)
    (p : Fin 5000) (q : Fin 256) :
    k0_pay1 v0 v2 v5 (ix2 p q) = (∑ k : Fin 256, v0 (ix2 p k) * v2 (ix2 k q)) + v5 (ix1 q) := by
  unfold k0_pay1
  rw [addf_apply, Cert.Lib.broadcastTo_row_apply, bias_row_apply, matmul_at]
  rfl

/-- The dense layer at an index whose row is `r` and whose column is `q`. -/
theorem dense_apply {M K N : ℕ} (x : (⟨2, ![M, K]⟩ : Shape).Idx → EReal) (w : (⟨2, ![K, N]⟩ : Shape).Idx → EReal)
    (b : (⟨1, ![N]⟩ : Shape).Idx → EReal) (i : (⟨2, ![M, N]⟩ : Shape).Idx) (r : Fin M) (q : Fin N)
    (h0 : i 0 = r) (h1 : i 1 = q) :
    Cert.Spec.dense x w b i = (∑ k : Fin K, x (ix2 r k) * w (ix2 k q)) + b (ix1 q) := by
  subst h0 h1; rfl

/-- Zero offsets on every axis, for a rank-2 and a rank-1 rectangle. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- The index maps over the ten grid points: the block of `x` and the output block are both the `t`-th block of
    5000 rows; the weight and the bias are their one whole block at every point. -/
theorem block_indices : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The block of `x` at point `t`, at `(p, k)`: row `5000 t + p` of `x`, column `k`. -/
theorem x_block (c : Dev nD) (t : Fin cfg0.N) (p : Fin 5000) (k : Fin 256) (i : S50000x256.Idx)
    (h0 : (i 0).val = t.val * 5000 + p.val) (h1 : (i 1).val = k.val) :
    (iblk0 V c 0 t : Vec Ideal S5000x256 .f32) (ix2 p k) = (V c main_arg0 : S50000x256.Idx → EReal) i := by
  obtain ⟨e0, e1, -⟩ := block_indices t
  show V c main_arg0 (((cfg0.win 0).blk t).view.emb (ix2 p k)) = V c main_arg0 i
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 256 + 1 * k.val = (i 1).val; rw [e1, h1]; omega

/-- The weight's block at any point is the whole weight. -/
theorem w_block (c : Dev nD) (t : Fin cfg0.N) (k q : Fin 256) :
    (iblk0 V c 1 t : Vec Ideal S256x256 .f32) (ix2 k q) = (V c main_arg7 : S256x256.Idx → EReal) (ix2 k q) := by
  obtain ⟨-, -, e0, e1, -⟩ := block_indices t
  show V c main_arg7 (((cfg0.win 1).blk t).view.emb (ix2 k q)) = V c main_arg7 (ix2 k q)
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The bias's block at any point is the whole bias. -/
theorem b_block (c : Dev nD) (t : Fin cfg0.N) (q : Fin 256) :
    (iblk0 V c 2 t : Vec Ideal S256 .f32) (ix1 q) = (V c main_arg8 : S256.Idx → EReal) (ix1 q) := by
  obtain ⟨-, -, -, -, e0, -⟩ := block_indices t
  show V c main_arg8 (((cfg0.win 2).blk t).view.emb (ix1 q)) = V c main_arg8 (ix1 q)
  congr 1
  funext a
  apply Fin.ext
  match a with
  | ⟨0, _⟩ => show win0_2.index t (0 : Fin 1) * 256 + 1 * q.val = q.val; rw [e0]; omega

/-- WHAT POINT `t` WRITES BACK is block `t` of the dense layer of the three arrays as the region finds them. -/
theorem flushed_eq (c : Dev nD) (t : Fin cfg0.N) :
    (dat0 (F := Ideal) V c).flushed 3 t
      = ((cfg0.win 3).blk t).view.read (Elt Ideal) (Cert.Spec.dense (V c main_arg0) (V c main_arg7) (V c main_arg8)) := by
  show (cfg0.win 3).cut (grid0.coords t) ((dat0 V c).after 3 t) = _
  rw [after0_3]
  unfold out0_3
  rw [View.canon_unit_zero zero_offsets2]
  simp only [View.ld_unit_zero (S := S5000x256) zero_offsets2, View.ld_unit_zero (S := S256x256) zero_offsets2,
    View.ld_unit_zero (S := S256) zero_offsets1]
  obtain ⟨-, -, -, -, -, e0, e1⟩ := block_indices t
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (ix2 p q)
    = Cert.Spec.dense (V c main_arg0) (V c main_arg7) (V c main_arg8) (((cfg0.win 3).blk t).view.emb (ix2 p q))
  have hr : ((((cfg0.win 3).blk t).view.emb (ix2 p q)) 0).val = t.val * 5000 + p.val := by
    show win0_3.index t (0 : Fin 2) * 5000 + 1 * p.val = _; rw [e0]; omega
  have hc : ((((cfg0.win 3).blk t).view.emb (ix2 p q)) 1).val = q.val := by
    show win0_3.index t (1 : Fin 2) * 256 + 1 * q.val = _; rw [e1]; omega
  refine (pay_apply (iblk0 V c 0 t) (iblk0 V c 1 t) (iblk0 V c 2 t) p q).trans ?_
  rw [dense_apply (V c main_arg0) (V c main_arg7) (V c main_arg8) _ ((((cfg0.win 3).blk t).view.emb (ix2 p q)) 0) q rfl (Fin.ext hc)]
  congr 1
  · refine Finset.sum_congr rfl fun k _ => ?_
    rw [x_block V c t p k (ix2 ((((cfg0.win 3).blk t).view.emb (ix2 p q)) 0) k) hr rfl, w_block V c t k q]
  · exact b_block V c t q

/-- An index of the output array is in point `t`'s block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v0).slice (win0_3.rect t)).set ↔ _
  rw [View.set_slice_whole, Rect.mem_set_unit]
  exact Iff.rfl

/-- The ten blocks of 5000 rows tile the 50000 rows: row `r` lies in the block of point `r / 5000`. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := rfl
  obtain ⟨t, ht⟩ : ∃ t : Fin cfg0.N, t.val = (i 0).val / 5000 := ⟨⟨(i 0).val / 5000, by rw [hN]; omega⟩, rfl⟩
  obtain ⟨-, -, -, -, -, e0, e1⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 256 ≤ (i 1).val ∧ (i 1).val < win0_3.index t (1 : Fin 2) * 256 + 256
    rw [e1]; omega

end Region0

/-- The output array after the run is the dense layer of the three arrays as the region finds them: every point writes
    its block of it, and the blocks cover the array. -/
theorem region0_val (c : Dev nD) :
    ((dat0 (F := Ideal) V c).arrAt 3 cfg0.N : S50000x256.Idx → EReal)
      = Cert.Spec.dense (V c main_arg0) (V c main_arg7) (V c main_arg8) :=
  (dat0 V c).arrAt_eq_of_cover 3 (Cert.Spec.dense (V c main_arg0) (V c main_arg7) (V c main_arg8))
    (fun t _ => Region0.flushed_eq V c t) Region0.covered

end Cert.KernelIdeal.RegionVal

end
-- ==== Proof.Region1.lean ====
/-
  The output array of pipeline 1, the message kernel on the first key, after the run.

  The grid has 63 points; point `t` stages rows `4000 t … 4000 t + 3999` of the two end points' node features and degree
  codes, the whole weight matrices and the whole bias, and writes back rows `4000 t … 4000 t + 3999` of the output. At
  entry `(p, q)` of a block the body computes the product of two logistic gates, each the logistic function of
  `∑ₖ h[p,k]·wh[k,q] + ∑ₖ d[p,k]·wd[k,q] + b[q]` (on the extended reals a change of float format is the identity and a
  product into a zero accumulator is the plain sum along the contracted axis). That is the whole-array message at row
  `4000 t + p`, column `q`; the 63 blocks tile the 252000 rows, so the array ends holding the message everywhere.
-/
import proofs.«408056_j78039555768490_1_alg».proof.Proof.Gen.KernelIdeal.Frame
import proofs.«408056_j78039555768490_1_alg».proof.Proof.Spec
import proofs.«408056_j78039555768490_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Region1

/-! ## The body's arithmetic at an entry -/

/-- The contraction of the node-feature product is the plain one: axis 1 of a 4000 × 256 block against axis 0 of the
    256 × 256 weights. -/
theorem dotH_plain : dot_S4000x256_S256x256_S4000x256_1_0_0_1_n_n = DotDims.plain 4000 256 256 := rfl

/-- The contraction of the degree-code product is the plain one: axis 1 of a 4000 × 16 block against axis 0 of the
    16 × 256 weights. -/
theorem dotD_plain : dot_S4000x16_S16x256_S4000x256_1_0_0_1_n_n = DotDims.plain 4000 16 256 := rfl

/-- The bias vector viewed as a one-row array reads, in column `q`, the vector's entry `q`. -/
theorem biasRow_apply (b : Vec Ideal S256 .f32) (h : S256.ShapeCasts S1x256) (q : Fin 256) :
    shapeCast S1x256 b h (ix2 (0 : Fin 1) q) = b (ix1 q) :=
  shapeCast_apply b h _ _ (by
    rw [Shape.rowMajor_val_two, Shape.rowMajor_val_one]
    show q.val = 0 * 256 + q.val
    omega)

/-- One gate's argument at entry `(p, q)` of a block: a change of float format is the identity on the extended reals,
    a product into the zero accumulator is the sum along the contracted axis, and the bias row broadcast down the
    rows reads the bias entry of column `q`. -/
theorem gate_apply (h : Vec Ideal S4000x256 .f32) (d : Vec Ideal S4000x16 .f32) (wh : Vec Ideal S256x256 .f32)
    (wd : Vec Ideal S16x256 .f32) (b : Vec Ideal S256 .f32) (p : Fin 4000) (q : Fin 256) :
    addf (addf
        (matmul dot_S4000x256_S256x256_S4000x256_1_0_0_1_n_n none
          (truncf .bf16 (shapeCast S4000x256 h shapeCasts_S4000x256_S4000x256) bitsLt_bf16_f32)
          (truncf .bf16 (shapeCast S256x256 wh shapeCasts_S256x256_S256x256) bitsLt_bf16_f32)
          (constant (F := Ideal) S4000x256 .f32 0x00000000#32))
        (matmul dot_S4000x16_S16x256_S4000x256_1_0_0_1_n_n none
          (truncf .bf16 (shapeCast S4000x16 d shapeCasts_S4000x16_S4000x16) bitsLt_bf16_f32)
          (truncf .bf16 (shapeCast S16x256 wd shapeCasts_S16x256_S16x256) bitsLt_bf16_f32)
          (constant (F := Ideal) S4000x256 .f32 0x00000000#32)))
      (broadcastTo S4000x256 (shapeCast S1x256 b shapeCasts_S256_S1x256) broadcasts_S1x256_S4000x256) (ix2 p q)
    = (∑ k : Fin 256, h (ix2 p k) * wh (ix2 k q)) + (∑ k : Fin 16, d (ix2 p k) * wd (ix2 k q)) + b (ix1 q) := by
  rw [addf_apply, addf_apply, Cert.Lib.broadcastTo_row_apply, biasRow_apply, dotH_plain, dotD_plain]
  rw [shapeCast_self, shapeCast_self, shapeCast_self, shapeCast_self]
  show FloatOps.matmul (DotDims.plain 4000 256 256) none _ _ (constant (F := Ideal) ⟨2, ![4000, 256]⟩ .f32 0x00000000#32) (ix2 p q)
    + FloatOps.matmul (DotDims.plain 4000 16 256) none _ _ (constant (F := Ideal) ⟨2, ![4000, 256]⟩ .f32 0x00000000#32) (ix2 p q) + _ = _
  rw [Cert.Lib.matmul_plain_zero_apply, Cert.Lib.matmul_plain_zero_apply]
  rfl

/-- The stored block at entry `(p, q)`: the product of the two end points' logistic gates, each gate's argument the
    node-feature row `p` against column `q` of the first weights, plus the degree-code row `p` against column `q` of the
    second, plus the bias entry `q`. -/
theorem msgPay_apply (v0 v3 : Vec Ideal S4000x256 .f32) (v6 v9 : Vec Ideal S4000x16 .f32) (v12 : Vec Ideal S256x256 .f32)
    (v15 : Vec Ideal S16x256 .f32) (v18 : Vec Ideal S256 .f32) (p : Fin 4000) (q : Fin 256) :
    k1_pay1 v0 v3 v6 v9 v12 v15 v18 (ix2 p q)
      = Ideal.logistic ((∑ k : Fin 256, v0 (ix2 p k) * v12 (ix2 k q)) + (∑ k : Fin 16, v6 (ix2 p k) * v15 (ix2 k q)) + v18 (ix1 q))
        * Ideal.logistic ((∑ k : Fin 256, v3 (ix2 p k) * v12 (ix2 k q)) + (∑ k : Fin 16, v9 (ix2 p k) * v15 (ix2 k q)) + v18 (ix1 q)) := by
  unfold k1_pay1
  rw [mulf_apply]
  show FloatOps.logistic (addf _ _ (ix2 p q)) * FloatOps.logistic (addf _ _ (ix2 p q)) = _
  rw [Ideal.logistic_def, Ideal.logistic_def, gate_apply, gate_apply]

/-- The stored block against the whole-array message: when the seven loaded blocks read the seven arrays at the rows
    and columns of array index `i` (rows of the end points' features and codes at `i 0`, columns of the weights and the
    bias entry at `i 1`), the block's entry `(p, q)` is the message at `i`. -/
theorem msgPay_eq_msg (H0 H1 : S252000x256.Idx → EReal) (D0 D1 : S252000x16.Idx → EReal) (Wh : S256x256.Idx → EReal)
    (Wd : S16x256.Idx → EReal) (B : S256.Idx → EReal)
    (v0 v3 : Vec Ideal S4000x256 .f32) (v6 v9 : Vec Ideal S4000x16 .f32) (v12 : Vec Ideal S256x256 .f32)
    (v15 : Vec Ideal S16x256 .f32) (v18 : Vec Ideal S256 .f32) (p : Fin 4000) (q : Fin 256) (i : S252000x256.Idx)
    (e0 : ∀ k : Fin 256, v0 (ix2 p k) = H0 (ix2 (i 0) k)) (e3 : ∀ k : Fin 256, v3 (ix2 p k) = H1 (ix2 (i 0) k))
    (e6 : ∀ k : Fin 16, v6 (ix2 p k) = D0 (ix2 (i 0) k)) (e9 : ∀ k : Fin 16, v9 (ix2 p k) = D1 (ix2 (i 0) k))
    (e12 : ∀ k : Fin 256, v12 (ix2 k q) = Wh (ix2 k (i 1))) (e15 : ∀ k : Fin 16, v15 (ix2 k q) = Wd (ix2 k (i 1)))
    (e18 : v18 (ix1 q) = B (ix1 (i 1))) :
    k1_pay1 v0 v3 v6 v9 v12 v15 v18 (ix2 p q) = Cert.Spec.msg (M := 252000) H0 D0 H1 D1 Wh Wd B i := by
  rw [msgPay_apply]
  unfold Cert.Spec.msg Cert.Spec.gateArg
  simp only [e0, e3, e6, e9, e12, e15, e18]

/-! ## The blocks a grid point reads and writes -/

/-- The body loads and stores each staging buffer whole: the offsets of its accesses are zero on both axes, -/
theorem zeros2 : (![0, 0] : Fin 2 → Nat) = fun _ => 0 := funext fun a => by fin_cases a <;> rfl
/-- and on the one axis of the bias. -/
theorem zeros1 : (![0] : Fin 1 → Nat) = fun _ => 0 := funext fun a => by fin_cases a <;> rfl

/-- The printed index maps over the 63 grid points: the four row-blocked inputs and the output take block `t` of the
    rows and the one block of the columns; the weights and the bias are their one block at every point. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- WHAT POINT `t` WRITES BACK is block `t` of the whole-array message of the seven arrays as the region finds them:
    entry `(p, q)` of the block is array index `(4000 t + p, q)`; the end points' blocks hold rows `4000 t + p` of their
    arrays, the weights and the bias are whole, so each sum and the bias entry are the array's. -/
theorem flushed_msg (c : Dev nD) (t : Fin cfg1.N) :
    (dat1 (F := Ideal) V c).flushed 7 t
      = ((cfg1.win 7).blk t).view.read (Elt Ideal)
          (Cert.Spec.msg (M := 252000) (V c main_v13) (V c main_v15) (V c main_v14) (V c main_v16) (V c main_v1) (V c main_v2) (V c main_arg10)) := by
  show (cfg1.win 7).cut (grid1.coords t) ((dat1 V c).after 7 t) = _
  rw [after1_7]
  unfold out1_7
  rw [View.canon_unit_zero zeros2]
  simp only [View.ld_unit_zero (S := S4000x256) zeros2, View.ld_unit_zero (S := S4000x16) zeros2,
    View.ld_unit_zero (S := S256x256) zeros2, View.ld_unit_zero (S := S16x256) zeros2, View.ld_unit_zero (S := S256) zeros1]
  obtain ⟨a0, a1, b0, b1, c0, c1, d0, d1, e0, e1, f0, f1, g0, o0, o1⟩ := blockIdx t
  funext j
  obtain ⟨p, q, rfl⟩ : ∃ (p : Fin 4000) (q : Fin 256), j = ix2 p q := ⟨j 0, j 1, eq_ix2 j⟩
  refine msgPay_eq_msg (V c main_v13) (V c main_v14) (V c main_v15) (V c main_v16) (V c main_v1) (V c main_v2) (V c main_arg10)
    (iblk1 V c 0 t) (iblk1 V c 2 t) (iblk1 V c 1 t) (iblk1 V c 3 t) (iblk1 V c 4 t) (iblk1 V c 5 t) (iblk1 V c 6 t) p q
    (((cfg1.win 7).blk t).view.emb (ix2 p q)) ?_ ?_ ?_ ?_ ?_ ?_ ?_
  · intro k
    show V c main_v13 (((cfg1.win 0).blk t).view.emb (ix2 p k)) = V c main_v13 _
    refine congrArg _ (funext fun a => Fin.ext ?_)
    match a with
    | ⟨0, _⟩ => show win1_0.index t (0 : Fin 2) * 4000 + 1 * p.val = win1_7.index t (0 : Fin 2) * 4000 + 1 * p.val; omega
    | ⟨1, _⟩ => show win1_0.index t (1 : Fin 2) * 256 + 1 * k.val = k.val; omega
  · intro k
    show V c main_v14 (((cfg1.win 2).blk t).view.emb (ix2 p k)) = V c main_v14 _
    refine congrArg _ (funext fun a => Fin.ext ?_)
    match a with
    | ⟨0, _⟩ => show win1_2.index t (0 : Fin 2) * 4000 + 1 * p.val = win1_7.index t (0 : Fin 2) * 4000 + 1 * p.val; omega
    | ⟨1, _⟩ => show win1_2.index t (1 : Fin 2) * 256 + 1 * k.val = k.val; omega
  · intro k
    show V c main_v15 (((cfg1.win 1).blk t).view.emb (ix2 p k)) = V c main_v15 _
    refine congrArg _ (funext fun a => Fin.ext ?_)
    match a with
    | ⟨0, _⟩ => show win1_1.index t (0 : Fin 2) * 4000 + 1 * p.val = win1_7.index t (0 : Fin 2) * 4000 + 1 * p.val; omega
    | ⟨1, _⟩ => show win1_1.index t (1 : Fin 2) * 16 + 1 * k.val = k.val; omega
  · intro k
    show V c main_v16 (((cfg1.win 3).blk t).view.emb (ix2 p k)) = V c main_v16 _
    refine congrArg _ (funext fun a => Fin.ext ?_)
    match a with
    | ⟨0, _⟩ => show win1_3.index t (0 : Fin 2) * 4000 + 1 * p.val = win1_7.index t (0 : Fin 2) * 4000 + 1 * p.val; omega
    | ⟨1, _⟩ => show win1_3.index t (1 : Fin 2) * 16 + 1 * k.val = k.val; omega
  · intro k
    show V c main_v1 (((cfg1.win 4).blk t).view.emb (ix2 k q)) = V c main_v1 _
    refine congrArg _ (funext fun a => Fin.ext ?_)
    match a with
    | ⟨0, _⟩ => show win1_4.index t (0 : Fin 2) * 256 + 1 * k.val = k.val; omega
    | ⟨1, _⟩ => show win1_4.index t (1 : Fin 2) * 256 + 1 * q.val = win1_7.index t (1 : Fin 2) * 256 + 1 * q.val; omega
  · intro k
    show V c main_v2 (((cfg1.win 5).blk t).view.emb (ix2 k q)) = V c main_v2 _
    refine congrArg _ (funext fun a => Fin.ext ?_)
    match a with
    | ⟨0, _⟩ => show win1_5.index t (0 : Fin 2) * 16 + 1 * k.val = k.val; omega
    | ⟨1, _⟩ => show win1_5.index t (1 : Fin 2) * 256 + 1 * q.val = win1_7.index t (1 : Fin 2) * 256 + 1 * q.val; omega
  · show V c main_arg10 (((cfg1.win 6).blk t).view.emb (ix1 q)) = V c main_arg10 _
    refine congrArg _ (funext fun a => Fin.ext ?_)
    match a with
    | ⟨0, _⟩ => show win1_6.index t (0 : Fin 1) * 256 + 1 * q.val = win1_7.index t (1 : Fin 2) * 256 + 1 * q.val; omega

/-- The grid has 63 points. -/
theorem gridPoints : cfg1.N = 63 := rfl

/-- An index of the output array is in point `t`'s block iff each coordinate is in the block's range on its axis. -/
theorem mem_outBlock (t : Fin cfg1.N) (i : S252000x256.Idx) :
    i ∈ ((cfg1.win 7).blk t).view.set ↔ ∀ a : Fin 2, win1_7.index t a * S4000x256.size a ≤ (i a).val
      ∧ (i a).val < win1_7.index t a * S4000x256.size a + S4000x256.size a := by
  show i ∈ ((View.whole main_v17).slice (win1_7.rect t)).set ↔ _
  rw [View.set_slice_whole, Rect.mem_set_unit]
  exact Iff.rfl

/-- The 63 blocks of 4000 rows tile the 252000 rows: row `r` lies in the block of point `r / 4000`, and every block
    spans all 256 columns. -/
theorem covered (i : S252000x256.Idx) :
    ∃ t : Fin cfg1.N, (cfg1.win 7).flush t = true ∧ i ∈ ((cfg1.win 7).blk t).view.set := by
  have hi0 : (i 0).val < 252000 := (i 0).isLt
  have hi1 : (i 1).val < 256 := (i 1).isLt
  obtain ⟨t, ht⟩ : ∃ t : Fin cfg1.N, t.val = (i 0).val / 4000 :=
    ⟨⟨(i 0).val / 4000, by rw [gridPoints]; omega⟩, rfl⟩
  obtain ⟨-, -, -, -, -, -, -, -, -, -, -, -, -, o0, o1⟩ := blockIdx t
  refine ⟨t, flush1_7 t, ?_⟩
  rw [mem_outBlock]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 256 ≤ (i 1).val ∧ (i 1).val < win1_7.index t (1 : Fin 2) * 256 + 256
    omega

end Region1

/-- The output array of pipeline 1 after the run is the message of the seven arrays as the region finds them. -/
theorem region1_val (c : Dev nD) :
    ((dat1 (F := Ideal) V c).arrAt 7 cfg1.N : S252000x256.Idx → EReal)
      = Cert.Spec.msg (V c main_v13) (V c main_v15) (V c main_v14) (V c main_v16) (V c main_v1) (V c main_v2) (V c main_arg10) :=
  (dat1 (F := Ideal) V c).arrAt_eq_of_cover 7
    (Cert.Spec.msg (M := 252000) (V c main_v13) (V c main_v15) (V c main_v14) (V c main_v16) (V c main_v1) (V c main_v2) (V c main_arg10))
    (fun t _ => Region1.flushed_msg V c t) Region1.covered

end Cert.KernelIdeal.RegionVal

end
-- ==== Proof.Region2.lean ====
/-
  The output array of pipeline 2, the message kernel on the second key, after the run.

  The grid has 63 points; point `t` stages rows `4000 t … 4000 t + 3999` of the two end points' node features and degree
  codes, the whole weight matrices and the whole bias, and writes back rows `4000 t … 4000 t + 3999` of the output. At
  entry `(p, q)` of a block the body computes the product of two logistic gates, each the logistic function of
  `∑ₖ h[p,k]·wh[k,q] + ∑ₖ d[p,k]·wd[k,q] + b[q]` (on the extended reals a change of float format is the identity and a
  product into a zero accumulator is the plain sum along the contracted axis). That is the whole-array message at row
  `4000 t + p`, column `q`; the 63 blocks tile the 252000 rows, so the array ends holding the message everywhere.
-/
import proofs.«408056_j78039555768490_1_alg».proof.Proof.Gen.KernelIdeal.Frame
import proofs.«408056_j78039555768490_1_alg».proof.Proof.Spec
import proofs.«408056_j78039555768490_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Region2

/-! ## The body's arithmetic at an entry -/

/-- The contraction of the node-feature product is the plain one: axis 1 of a 4000 × 256 block against axis 0 of the
    256 × 256 weights. -/
theorem dotH_plain : dot_S4000x256_S256x256_S4000x256_1_0_0_1_n_n = DotDims.plain 4000 256 256 := rfl

/-- The contraction of the degree-code product is the plain one: axis 1 of a 4000 × 16 block against axis 0 of the
    16 × 256 weights. -/
theorem dotD_plain : dot_S4000x16_S16x256_S4000x256_1_0_0_1_n_n = DotDims.plain 4000 16 256 := rfl

/-- The bias vector viewed as a one-row array reads, in column `q`, the vector's entry `q`. -/
theorem biasRow_apply (b : Vec Ideal S256 .f32) (h : S256.ShapeCasts S1x256) (q : Fin 256) :
    shapeCast S1x256 b h (ix2 (0 : Fin 1) q) = b (ix1 q) :=
  shapeCast_apply b h _ _ (by
    rw [Shape.rowMajor_val_two, Shape.rowMajor_val_one]
    show q.val = 0 * 256 + q.val
    omega)

/-- One gate's argument at entry `(p, q)` of a block: a change of float format is the identity on the extended reals,
    a product into the zero accumulator is the sum along the contracted axis, and the bias row broadcast down the
    rows reads the bias entry of column `q`. -/
theorem gate_apply (h : Vec Ideal S4000x256 .f32) (d : Vec Ideal S4000x16 .f32) (wh : Vec Ideal S256x256 .f32)
    (wd : Vec Ideal S16x256 .f32) (b : Vec Ideal S256 .f32) (p : Fin 4000) (q : Fin 256) :
    addf (addf
        (matmul dot_S4000x256_S256x256_S4000x256_1_0_0_1_n_n none
          (truncf .bf16 (shapeCast S4000x256 h shapeCasts_S4000x256_S4000x256) bitsLt_bf16_f32)
          (truncf .bf16 (shapeCast S256x256 wh shapeCasts_S256x256_S256x256) bitsLt_bf16_f32)
          (constant (F := Ideal) S4000x256 .f32 0x00000000#32))
        (matmul dot_S4000x16_S16x256_S4000x256_1_0_0_1_n_n none
          (truncf .bf16 (shapeCast S4000x16 d shapeCasts_S4000x16_S4000x16) bitsLt_bf16_f32)
          (truncf .bf16 (shapeCast S16x256 wd shapeCasts_S16x256_S16x256) bitsLt_bf16_f32)
          (constant (F := Ideal) S4000x256 .f32 0x00000000#32)))
      (broadcastTo S4000x256 (shapeCast S1x256 b shapeCasts_S256_S1x256) broadcasts_S1x256_S4000x256) (ix2 p q)
    = (∑ k : Fin 256, h (ix2 p k) * wh (ix2 k q)) + (∑ k : Fin 16, d (ix2 p k) * wd (ix2 k q)) + b (ix1 q) := by
  rw [addf_apply, addf_apply, Cert.Lib.broadcastTo_row_apply, biasRow_apply, dotH_plain, dotD_plain]
  rw [shapeCast_self, shapeCast_self, shapeCast_self, shapeCast_self]
  show FloatOps.matmul (DotDims.plain 4000 256 256) none _ _ (constant (F := Ideal) ⟨2, ![4000, 256]⟩ .f32 0x00000000#32) (ix2 p q)
    + FloatOps.matmul (DotDims.plain 4000 16 256) none _ _ (constant (F := Ideal) ⟨2, ![4000, 256]⟩ .f32 0x00000000#32) (ix2 p q) + _ = _
  rw [Cert.Lib.matmul_plain_zero_apply, Cert.Lib.matmul_plain_zero_apply]
  rfl

/-- The stored block at entry `(p, q)`: the product of the two end points' logistic gates, each gate's argument the
    node-feature row `p` against column `q` of the first weights, plus the degree-code row `p` against column `q` of the
    second, plus the bias entry `q`. -/
theorem msgPay_apply (v0 v3 : Vec Ideal S4000x256 .f32) (v6 v9 : Vec Ideal S4000x16 .f32) (v12 : Vec Ideal S256x256 .f32)
    (v15 : Vec Ideal S16x256 .f32) (v18 : Vec Ideal S256 .f32) (p : Fin 4000) (q : Fin 256) :
    k2_pay1 v0 v3 v6 v9 v12 v15 v18 (ix2 p q)
      = Ideal.logistic ((∑ k : Fin 256, v0 (ix2 p k) * v12 (ix2 k q)) + (∑ k : Fin 16, v6 (ix2 p k) * v15 (ix2 k q)) + v18 (ix1 q))
        * Ideal.logistic ((∑ k : Fin 256, v3 (ix2 p k) * v12 (ix2 k q)) + (∑ k : Fin 16, v9 (ix2 p k) * v15 (ix2 k q)) + v18 (ix1 q)) := by
  unfold k2_pay1
  rw [mulf_apply]
  show FloatOps.logistic (addf _ _ (ix2 p q)) * FloatOps.logistic (addf _ _ (ix2 p q)) = _
  rw [Ideal.logistic_def, Ideal.logistic_def, gate_apply, gate_apply]

/-- The stored block against the whole-array message: when the seven loaded blocks read the seven arrays at the rows
    and columns of array index `i` (rows of the end points' features and codes at `i 0`, columns of the weights and the
    bias entry at `i 1`), the block's entry `(p, q)` is the message at `i`. -/
theorem msgPay_eq_msg (H0 H1 : S252000x256.Idx → EReal) (D0 D1 : S252000x16.Idx → EReal) (Wh : S256x256.Idx → EReal)
    (Wd : S16x256.Idx → EReal) (B : S256.Idx → EReal)
    (v0 v3 : Vec Ideal S4000x256 .f32) (v6 v9 : Vec Ideal S4000x16 .f32) (v12 : Vec Ideal S256x256 .f32)
    (v15 : Vec Ideal S16x256 .f32) (v18 : Vec Ideal S256 .f32) (p : Fin 4000) (q : Fin 256) (i : S252000x256.Idx)
    (e0 : ∀ k : Fin 256, v0 (ix2 p k) = H0 (ix2 (i 0) k)) (e3 : ∀ k : Fin 256, v3 (ix2 p k) = H1 (ix2 (i 0) k))
    (e6 : ∀ k : Fin 16, v6 (ix2 p k) = D0 (ix2 (i 0) k)) (e9 : ∀ k : Fin 16, v9 (ix2 p k) = D1 (ix2 (i 0) k))
    (e12 : ∀ k : Fin 256, v12 (ix2 k q) = Wh (ix2 k (i 1))) (e15 : ∀ k : Fin 16, v15 (ix2 k q) = Wd (ix2 k (i 1)))
    (e18 : v18 (ix1 q) = B (ix1 (i 1))) :
    k2_pay1 v0 v3 v6 v9 v12 v15 v18 (ix2 p q) = Cert.Spec.msg (M := 252000) H0 D0 H1 D1 Wh Wd B i := by
  rw [msgPay_apply]
  unfold Cert.Spec.msg Cert.Spec.gateArg
  simp only [e0, e3, e6, e9, e12, e15, e18]

/-! ## The blocks a grid point reads and writes -/

/-- The body loads and stores each staging buffer whole: the offsets of its accesses are zero on both axes, -/
theorem zeros2 : (![0, 0] : Fin 2 → Nat) = fun _ => 0 := funext fun a => by fin_cases a <;> rfl
/-- and on the one axis of the bias. -/
theorem zeros1 : (![0] : Fin 1 → Nat) = fun _ => 0 := funext fun a => by fin_cases a <;> rfl

/-- The printed index maps over the 63 grid points: the four row-blocked inputs and the output take block `t` of the
    rows and the one block of the columns; the weights and the bias are their one block at every point. -/
theorem blockIdx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- WHAT POINT `t` WRITES BACK is block `t` of the whole-array message of the seven arrays as the region finds them:
    entry `(p, q)` of the block is array index `(4000 t + p, q)`; the end points' blocks hold rows `4000 t + p` of their
    arrays, the weights and the bias are whole, so each sum and the bias entry are the array's. -/
theorem flushed_msg (c : Dev nD) (t : Fin cfg2.N) :
    (dat2 (F := Ideal) V c).flushed 7 t
      = ((cfg2.win 7).blk t).view.read (Elt Ideal)
          (Cert.Spec.msg (M := 252000) (V c main_v40) (V c main_v42) (V c main_v41) (V c main_v43) (V c main_v28) (V c main_v29) (V c main_arg12)) := by
  show (cfg2.win 7).cut (grid2.coords t) ((dat2 V c).after 7 t) = _
  rw [after2_7]
  unfold out2_7
  rw [View.canon_unit_zero zeros2]
  simp only [View.ld_unit_zero (S := S4000x256) zeros2, View.ld_unit_zero (S := S4000x16) zeros2,
    View.ld_unit_zero (S := S256x256) zeros2, View.ld_unit_zero (S := S16x256) zeros2, View.ld_unit_zero (S := S256) zeros1]
  obtain ⟨a0, a1, b0, b1, c0, c1, d0, d1, e0, e1, f0, f1, g0, o0, o1⟩ := blockIdx t
  funext j
  obtain ⟨p, q, rfl⟩ : ∃ (p : Fin 4000) (q : Fin 256), j = ix2 p q := ⟨j 0, j 1, eq_ix2 j⟩
  refine msgPay_eq_msg (V c main_v40) (V c main_v41) (V c main_v42) (V c main_v43) (V c main_v28) (V c main_v29) (V c main_arg12)
    (iblk2 V c 0 t) (iblk2 V c 2 t) (iblk2 V c 1 t) (iblk2 V c 3 t) (iblk2 V c 4 t) (iblk2 V c 5 t) (iblk2 V c 6 t) p q
    (((cfg2.win 7).blk t).view.emb (ix2 p q)) ?_ ?_ ?_ ?_ ?_ ?_ ?_
  · intro k
    show V c main_v40 (((cfg2.win 0).blk t).view.emb (ix2 p k)) = V c main_v40 _
    refine congrArg _ (funext fun a => Fin.ext ?_)
    match a with
    | ⟨0, _⟩ => show win2_0.index t (0 : Fin 2) * 4000 + 1 * p.val = win2_7.index t (0 : Fin 2) * 4000 + 1 * p.val; omega
    | ⟨1, _⟩ => show win2_0.index t (1 : Fin 2) * 256 + 1 * k.val = k.val; omega
  · intro k
    show V c main_v41 (((cfg2.win 2).blk t).view.emb (ix2 p k)) = V c main_v41 _
    refine congrArg _ (funext fun a => Fin.ext ?_)
    match a with
    | ⟨0, _⟩ => show win2_2.index t (0 : Fin 2) * 4000 + 1 * p.val = win2_7.index t (0 : Fin 2) * 4000 + 1 * p.val; omega
    | ⟨1, _⟩ => show win2_2.index t (1 : Fin 2) * 256 + 1 * k.val = k.val; omega
  · intro k
    show V c main_v42 (((cfg2.win 1).blk t).view.emb (ix2 p k)) = V c main_v42 _
    refine congrArg _ (funext fun a => Fin.ext ?_)
    match a with
    | ⟨0, _⟩ => show win2_1.index t (0 : Fin 2) * 4000 + 1 * p.val = win2_7.index t (0 : Fin 2) * 4000 + 1 * p.val; omega
    | ⟨1, _⟩ => show win2_1.index t (1 : Fin 2) * 16 + 1 * k.val = k.val; omega
  · intro k
    show V c main_v43 (((cfg2.win 3).blk t).view.emb (ix2 p k)) = V c main_v43 _
    refine congrArg _ (funext fun a => Fin.ext ?_)
    match a with
    | ⟨0, _⟩ => show win2_3.index t (0 : Fin 2) * 4000 + 1 * p.val = win2_7.index t (0 : Fin 2) * 4000 + 1 * p.val; omega
    | ⟨1, _⟩ => show win2_3.index t (1 : Fin 2) * 16 + 1 * k.val = k.val; omega
  · intro k
    show V c main_v28 (((cfg2.win 4).blk t).view.emb (ix2 k q)) = V c main_v28 _
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * q.val = win2_7.index t (1 : Fin 2) * 256 + 1 * q.val; omega
  · intro k
    show V c main_v29 (((cfg2.win 5).blk t).view.emb (ix2 k q)) = V c main_v29 _
    refine congrArg _ (funext fun a => Fin.ext ?_)
    match a with
    | ⟨0, _⟩ => show win2_5.index t (0 : Fin 2) * 16 + 1 * k.val = k.val; omega
    | ⟨1, _⟩ => show win2_5.index t (1 : Fin 2) * 256 + 1 * q.val = win2_7.index t (1 : Fin 2) * 256 + 1 * q.val; omega
  · show V c main_arg12 (((cfg2.win 6).blk t).view.emb (ix1 q)) = V c main_arg12 _
    refine congrArg _ (funext fun a => Fin.ext ?_)
    match a with
    | ⟨0, _⟩ => show win2_6.index t (0 : Fin 1) * 256 + 1 * q.val = win2_7.index t (1 : Fin 2) * 256 + 1 * q.val; omega

/-- The grid has 63 points. -/
theorem gridPoints : cfg2.N = 63 := rfl

/-- An index of the output array is in point `t`'s block iff each coordinate is in the block's range on its axis. -/
theorem mem_outBlock (t : Fin cfg2.N) (i : S252000x256.Idx) :
    i ∈ ((cfg2.win 7).blk t).view.set ↔ ∀ a : Fin 2, win2_7.index t a * S4000x256.size a ≤ (i a).val
      ∧ (i a).val < win2_7.index t a * S4000x256.size a + S4000x256.size a := by
  show i ∈ ((View.whole main_v44).slice (win2_7.rect t)).set ↔ _
  rw [View.set_slice_whole, Rect.mem_set_unit]
  exact Iff.rfl

/-- The 63 blocks of 4000 rows tile the 252000 rows: row `r` lies in the block of point `r / 4000`, and every block
    spans all 256 columns. -/
theorem covered (i : S252000x256.Idx) :
    ∃ t : Fin cfg2.N, (cfg2.win 7).flush t = true ∧ i ∈ ((cfg2.win 7).blk t).view.set := by
  have hi0 : (i 0).val < 252000 := (i 0).isLt
  have hi1 : (i 1).val < 256 := (i 1).isLt
  obtain ⟨t, ht⟩ : ∃ t : Fin cfg2.N, t.val = (i 0).val / 4000 :=
    ⟨⟨(i 0).val / 4000, by rw [gridPoints]; omega⟩, rfl⟩
  obtain ⟨-, -, -, -, -, -, -, -, -, -, -, -, -, o0, o1⟩ := blockIdx t
  refine ⟨t, flush2_7 t, ?_⟩
  rw [mem_outBlock]
  intro a
  match a with
  | ⟨0, _⟩ =>
    show win2_7.index t (0 : Fin 2) * 4000 ≤ (i 0).val ∧ (i 0).val < win2_7.index t (0 : Fin 2) * 4000 + 4000
    omega
  | ⟨1, _⟩ =>
    show win2_7.index t (1 : Fin 2) * 256 ≤ (i 1).val ∧ (i 1).val < win2_7.index t (1 : Fin 2) * 256 + 256
    omega

end Region2

/-- The output array of pipeline 2 after the run is the message of the seven arrays as the region finds them. -/
theorem region2_val (c : Dev nD) :
    ((dat2 (F := Ideal) V c).arrAt 7 cfg2.N : S252000x256.Idx → EReal)
      = Cert.Spec.msg (V c main_v40) (V c main_v42) (V c main_v41) (V c main_v43) (V c main_v28) (V c main_v29) (V c main_arg12) :=
  (dat2 (F := Ideal) V c).arrAt_eq_of_cover 7
    (Cert.Spec.msg (M := 252000) (V c main_v40) (V c main_v42) (V c main_v41) (V c main_v43) (V c main_v28) (V c main_v29) (V c main_arg12))
    (fun t _ => Region2.flushed_msg V c t) Region2.covered

end Cert.KernelIdeal.RegionVal

end
-- ==== Proof.HostTerms.lean ====
/-
  The host-side pieces of the kernel's program, as functions of whole arrays.

  Around its three launches the program prepares each key's operands on the host: it takes row 0 or row 1 of the
  pair table, turns a negative index into an index from the end, gathers the rows of the node features at those
  indices (an index outside `[0, 49999]` reads a fill word instead of a row), and appends 2000 zero rows so that
  the 250000 edges fill 63 blocks of 4000.  After a launch it drops those 2000 rows again, adds every edge's message
  into the row of its target node, scales the sums by `1 + ε` and adds them to the running result.
-/
import proofs.«408056_j78039555768490_1_alg».proof.Proof.Gen.KernelIdeal

noncomputable section

namespace Cert.KernelIdeal.HostT

open Idealize.ShloMosaic Idealize.SL.Sem
open Cert.KernelIdeal Cert.KernelIdeal.Gen

variable {F : FTy → Type} [FloatOps F]

/-- Row 0 of a `[2, 250000]` integer table, as a vector. -/
def pairRow0 (p : IVec S2x250000 32) : IVec S250000 32 :=
  shapeCast S250000 (extractStridedSlice S1x250000 ![0, 0] p slices_S2x250000_S1x250000_0_0) shapeCasts_S1x250000_S250000

/-- Row 1 of a `[2, 250000]` integer table, as a vector. -/
def pairRow1 (p : IVec S2x250000 32) : IVec S250000 32 :=
  shapeCast S250000 (extractStridedSlice S1x250000 ![1, 0] p slices_S2x250000_S1x250000_1_0) shapeCasts_S1x250000_S250000

/-- Slab 0 of a `[2, 250000, 16]` array, as a `[250000, 16]` array. -/
def degSlab0 (d : FVec F S2x250000x16 .f32) : FVec F S250000x16 .f32 :=
  shapeCast S250000x16 (extractStridedSlice S1x250000x16 ![0, 0, 0] d slices_S2x250000x16_S1x250000x16_0_0_0) shapeCasts_S1x250000x16_S250000x16

/-- Slab 1 of a `[2, 250000, 16]` array, as a `[250000, 16]` array. -/
def degSlab1 (d : FVec F S2x250000x16 .f32) : FVec F S250000x16 .f32 :=
  shapeCast S250000x16 (extractStridedSlice S1x250000x16 ![1, 0, 0] d slices_S2x250000x16_S1x250000x16_1_0_0) shapeCasts_S1x250000x16_S250000x16

/-- The first 256 rows of a `[272, 256]` weight matrix. -/
def wTop (w : FVec F S272x256 .f32) : FVec F S256x256 .f32 :=
  extractStridedSlice S256x256 ![0, 0] w slices_S272x256_S256x256_0_0

/-- The last 16 rows of a `[272, 256]` weight matrix. -/
def wBot (w : FVec F S272x256 .f32) : FVec F S16x256 .f32 :=
  extractStridedSlice S16x256 ![256, 0] w slices_S272x256_S16x256_256_0

/-- The start-index column: a negative index counts from the end of the 50000 rows. -/
def takeCol (p : IVec S250000 32) : IVec S250000x1 32 :=
  broadcastInDim S250000x1 ![0] bcast_S250000_S250000x1_0
    (select (cmpi .slt p (broadcastInDim S250000 ![] bcast_S_S250000 (constantI S_ 32 0#32)))
      (addi p (broadcastInDim S250000 ![] bcast_S_S250000 (constantI S_ 32 50000#32))) p)

/-- Per edge, whether the start index lies in `[0, 49999]`. -/
def takeMask (p : IVec S250000 32) : IVec S250000 1 :=
  Host.reduce IntOp.andi
    (andi (cmpi .sge (takeCol p) (broadcastInDim S250000x1 ![] bcast_S_S250000x1 (constantI S_ 32 0#32)))
      (cmpi .sle (takeCol p) (broadcastInDim S250000x1 ![0, 1] bcast_S1x1_S250000x1_0_1
        (broadcastInDim S1x1 ![1] bcast_S1_S1x1_1 (constantI S1 32 49999#32)))))
    (constantI S_ 1 1#1) reducesTo_S250000x1_S250000_d1 h_S_

/-- The rows of `x` at the start indices. -/
def takeRows (x : FVec F S50000x256 .f32) (p : IVec S250000 32) : FVec F S250000x256 .f32 :=
  Host.gather gather_S50000x256_S250000x1_S250000x256_1_0_n_n_0_1_1256 x (takeCol p)

/-- The rows of `x` at the start indices, a fill word on the edges whose index is out of range. -/
def takeFill (x : FVec F S50000x256 .f32) (p : IVec S250000 32) : FVec F S250000x256 .f32 :=
  select (broadcastInDim S250000x256 ![0] bcast_S250000_S250000x256_0 (takeMask p)) (takeRows x p)
    (broadcastInDim S250000x256 ![] bcast_S_S250000x256 (constant S_ .f32 0x7FC00000#32))

/-- 2000 rows of the converted integer 0 appended to a `[250000, 256]` array. -/
def padRows256 (x : FVec F S250000x256 .f32) : FVec F S252000x256 .f32 :=
  pad S252000x256 ![0, 0] ![2000, 0] ![0, 0] x (sitofp .f32 (constantI S_ 32 0#32)) pads_S250000x256_S252000x256_020000_000 h_S_

/-- 2000 rows of the converted integer 0 appended to a `[250000, 16]` array. -/
def padRows16 (x : FVec F S250000x16 .f32) : FVec F S252000x16 .f32 :=
  pad S252000x16 ![0, 0] ![2000, 0] ![0, 0] x (sitofp .f32 (constantI S_ 32 0#32)) pads_S250000x16_S252000x16_020000_000 h_S_

/-- The first 250000 rows of a `[252000, 256]` array. -/
def dropPad (y : FVec F S252000x256 .f32) : FVec F S250000x256 .f32 :=
  extractStridedSlice S250000x256 ![0, 0] y slices_S252000x256_S250000x256_0_0

/-- One key's term: every edge's message added into the row of its target node, scaled by `1 + ε`. -/
def keyTerm (s : IVec S250000 32) (eps : FVec F S1 .f32) (t : FVec F S250000x256 .f32) : FVec F S50000x256 .f32 :=
  mulf (broadcastInDim S50000x256 ![0, 1] bcast_S1x1_S50000x256_0_1 (broadcastInDim S1x1 ![1] bcast_S1_S1x1_1
      (addf (broadcastInDim S1 ![] bcast_S_S1 (constant S_ .f32 0x3F800000#32)) eps)))
    (Host.scatterAdd scatter_S50000x256_S250000x1_S250000x256_1_0_0_1
      (broadcastInDim S50000x256 ![] bcast_S_S50000x256 (constant S_ .f32 0x00000000#32))
      (broadcastInDim S250000x1 ![0] bcast_S250000_S250000x1_0 s) t)

end Cert.KernelIdeal.HostT

end
-- ==== Proof.Walk.lean ====
/-
  What the kernel's program holds in its buffers where each of its launches begins and where it returns.

  The program alternates stretches of host operations with three pipelined launches.  Reading the contents back
  through the stretch in front of a launch, every operand array of launches 1 and 2 is a fixed function of the
  launch arguments: a row of the pair table turned into gathered, filled and zero-padded feature rows, a slab of the
  degree features zero-padded, the two blocks of a weight matrix, a bias as launched.  Reading back from the return,
  the result is launch 0's output plus, per key, the scatter-added and scaled rows of that key's launch output.
-/
import proofs.«408056_j78039555768490_1_alg».proof.Proof.Gen.KernelIdeal.Frame
import proofs.«408056_j78039555768490_1_alg».proof.Proof.HostTerms
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.HostT

variable {F : FTy → Type} [FloatOps F]
variable (m : (ℓ : Loc nD τ sig) → Buf (Elt F) ℓ) (ρ : Dev nD → PrngReg) (c : Dev nD)

/-- At region 0's exit an input array of region 0 still holds what was launched. -/
theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg7 : W1 m ρ c (Proc.devRef .tc main_arg7) = m ((c : Thread nD τ).loc main_arg7) :=
  (W1_arr m ρ c 1).trans (((dat0 (V0 m ρ) c).arrAt_in 1 rfl _).trans (A_eq0 (V0 m ρ) c 1))
theorem W1_arg8 : W1 m ρ c (Proc.devRef .tc main_arg8) = m ((c : Thread nD τ).loc main_arg8) :=
  (W1_arr m ρ c 2).trans (((dat0 (V0 m ρ) c).arrAt_in 2 rfl _).trans (A_eq0 (V0 m ρ) c 2))
/-- A buffer that is no array of region 0 holds at its exit what was launched. -/
theorem W1_other (b : Ref sig .tc) (hb : ∀ w, Pipeline.arrRef spec0 w ≠ b) :
    W1 m ρ c (Proc.devRef .tc b) = m ((c : Thread nD τ).loc b) := W1_of_ne m ρ c b hb

/-- Reads the contents at region 1's entry back to region 0's exit: each host operation's own result becomes its
    function of its operands' contents, and a buffer an operation does not write keeps what it held. -/
macro "walk1" : tactic =>
  `(tactic| simp (disch := decide) only [W13, W12, W11, W10, W9, W8, W7, W6, W5, W4, W3, W2,
    hostOps1, hostOps1_1, hostOps1_2, hostOps1_3, hostOps1_4, hostOps1_5, hostOps1_6, hostOps1_7, hostOps1_8, hostOps1_9,
    hostOps1_10, hostOps1_11,
    after_cons, after_nil, nullary_result', unary_result', binary_result', ternary_result', quaternary_result', reshape_result',
    nullary_result_ne', unary_result_ne', binary_result_ne', ternary_result_ne', quaternary_result_ne', reshape_result_ne'])

set_option maxHeartbeats 4000000 in
theorem W13_arg0 : W13 m ρ c (Proc.devRef .tc main_arg0) = m ((c : Thread nD τ).loc main_arg0) := by
  walk1
  exact W1_arg0 m ρ c
/-- Region 1 neither reads nor writes this launch argument: it is kept across the region. -/
theorem W14_arg0 : W14 m ρ c (Proc.devRef .tc main_arg0) = m ((c : Thread nD τ).loc main_arg0) :=
  (W14_of_ne m ρ c main_arg0 (by decide)).trans (W13_arg0 m ρ c)

set_option maxHeartbeats 4000000 in
theorem W13_arg2 : W13 m ρ c (Proc.devRef .tc main_arg2) = m ((c : Thread nD τ).loc main_arg2) := by
  walk1
  exact W1_other m ρ c main_arg2 (by decide)
/-- Region 1 neither reads nor writes this launch argument: it is kept across the region. -/
theorem W14_arg2 : W14 m ρ c (Proc.devRef .tc main_arg2) = m ((c : Thread nD τ).loc main_arg2) :=
  (W14_of_ne m ρ c main_arg2 (by decide)).trans (W13_arg2 m ρ c)

set_option maxHeartbeats 4000000 in
theorem W13_arg4 : W13 m ρ c (Proc.devRef .tc main_arg4) = m ((c : Thread nD τ).loc main_arg4) := by
  walk1
  exact W1_other m ρ c main_arg4 (by decide)
/-- Region 1 neither reads nor writes this launch argument: it is kept across the region. -/
theorem W14_arg4 : W14 m ρ c (Proc.devRef .tc main_arg4) = m ((c : Thread nD τ).loc main_arg4) :=
  (W14_of_ne m ρ c main_arg4 (by decide)).trans (W13_arg4 m ρ c)

set_option maxHeartbeats 4000000 in
theorem W13_arg5 : W13 m ρ c (Proc.devRef .tc main_arg5) = m ((c : Thread nD τ).loc main_arg5) := by
  walk1
  exact W1_other m ρ c main_arg5 (by decide)
/-- Region 1 neither reads nor writes this launch argument: it is kept across the region. -/
theorem W14_arg5 : W14 m ρ c (Proc.devRef .tc main_arg5) = m ((c : Thread nD τ).loc main_arg5) :=
  (W14_of_ne m ρ c main_arg5 (by decide)).trans (W13_arg5 m ρ c)

set_option maxHeartbeats 4000000 in
theorem W13_arg6 : W13 m ρ c (Proc.devRef .tc main_arg6) = m ((c : Thread nD τ).loc main_arg6) := by
  walk1
  exact W1_other m ρ c main_arg6 (by decide)
/-- Region 1 neither reads nor writes this launch argument: it is kept across the region. -/
theorem W14_arg6 : W14 m ρ c (Proc.devRef .tc main_arg6) = m ((c : Thread nD τ).loc main_arg6) :=
  (W14_of_ne m ρ c main_arg6 (by decide)).trans (W13_arg6 m ρ c)

set_option maxHeartbeats 4000000 in
theorem W13_arg11 : W13 m ρ c (Proc.devRef .tc main_arg11) = m ((c : Thread nD τ).loc main_arg11) := by
  walk1
  exact W1_other m ρ c main_arg11 (by decide)
/-- Region 1 neither reads nor writes this launch argument: it is kept across the region. -/
theorem W14_arg11 : W14 m ρ c (Proc.devRef .tc main_arg11) = m ((c : Thread nD τ).loc main_arg11) :=
  (W14_of_ne m ρ c main_arg11 (by decide)).trans (W13_arg11 m ρ c)

set_option maxHeartbeats 4000000 in
theorem W13_arg12 : W13 m ρ c (Proc.devRef .tc main_arg12) = m ((c : Thread nD τ).loc main_arg12) := by
  walk1
  exact W1_other m ρ c main_arg12 (by decide)
/-- Region 1 neither reads nor writes this launch argument: it is kept across the region. -/
theorem W14_arg12 : W14 m ρ c (Proc.devRef .tc main_arg12) = m ((c : Thread nD τ).loc main_arg12) :=
  (W14_of_ne m ρ c main_arg12 (by decide)).trans (W13_arg12 m ρ c)

set_option maxHeartbeats 4000000 in
theorem W13_arg13 : W13 m ρ c (Proc.devRef .tc main_arg13) = m ((c : Thread nD τ).loc main_arg13) := by
  walk1
  exact W1_other m ρ c main_arg13 (by decide)
/-- Region 1 neither reads nor writes this launch argument: it is kept across the region. -/
theorem W14_arg13 : W14 m ρ c (Proc.devRef .tc main_arg13) = m ((c : Thread nD τ).loc main_arg13) :=
  (W14_of_ne m ρ c main_arg13 (by decide)).trans (W13_arg13 m ρ c)

set_option maxHeartbeats 4000000 in
theorem W13_arg14 : W13 m ρ c (Proc.devRef .tc main_arg14) = m ((c : Thread nD τ).loc main_arg14) := by
  walk1
  exact W1_other m ρ c main_arg14 (by decide)
/-- Region 1 neither reads nor writes this launch argument: it is kept across the region. -/
theorem W14_arg14 : W14 m ρ c (Proc.devRef .tc main_arg14) = m ((c : Thread nD τ).loc main_arg14) :=
  (W14_of_ne m ρ c main_arg14 (by decide)).trans (W13_arg14 m ρ c)

/-- Reads the contents at region 2's entry back to region 1's exit, operation by operation, as for region 1. -/
macro "walk2" : tactic =>
  `(tactic| simp (disch := decide) only [W26, W25, W24, W23, W22, W21, W20, W19, W18, W17, W16, W15,
    hostOps2, hostOps2_1, hostOps2_2, hostOps2_3, hostOps2_4, hostOps2_5, hostOps2_6, hostOps2_7, hostOps2_8, hostOps2_9,
    hostOps2_10, hostOps2_11,
    after_cons, after_nil, nullary_result', unary_result', binary_result', ternary_result', quaternary_result', reshape_result',
    nullary_result_ne', unary_result_ne', binary_result_ne', ternary_result_ne', quaternary_result_ne', reshape_result_ne'])

set_option maxHeartbeats 4000000 in
/-- Region 0's output array, at region 0's exit and kept to region 1's exit: no host operation before region 1
    writes it, and it is no array of region 1. -/
theorem W13_v0 : W13 m ρ c (Proc.devRef .tc main_v0) = (dat0 (V0 m ρ) c).arrAt 3 cfg0.N := by
  walk1
  exact W1_arr m ρ c 3
theorem W14_v0 : W14 m ρ c (Proc.devRef .tc main_v0) = (dat0 (V0 m ρ) c).arrAt 3 cfg0.N :=
  (W14_of_ne m ρ c main_v0 (by decide)).trans (W13_v0 m ρ c)
/-- Region 1's output array at its exit. -/
theorem W14_v17 : W14 m ρ c (Proc.devRef .tc main_v17) = (dat1 (V13 m ρ) c).arrAt 7 cfg1.N := W14_arr m ρ c 7

set_option maxHeartbeats 4000000 in
/-- After the first stretch of host operations behind region 1 the running result is region 0's output plus key 0's
    term over region 1's output. -/
theorem W15_v27 :
    W15 m ρ c (Proc.devRef .tc main_v27)
      = addf ((dat0 (V0 m ρ) c).arrAt 3 cfg0.N) (keyTerm (m ((c : Thread nD τ).loc main_arg5)) (m ((c : Thread nD τ).loc main_arg13))
          (dropPad ((dat1 (V13 m ρ) c).arrAt 7 cfg1.N))) := by
  simp (disch := decide) only [W15, hostOps2,
    after_cons, after_nil, nullary_result', unary_result', binary_result', ternary_result', quaternary_result', reshape_result',
    nullary_result_ne', unary_result_ne', binary_result_ne', ternary_result_ne', quaternary_result_ne', reshape_result_ne']
  rw [W14_v0, W14_v17, W14_arg5, W14_arg13]
  rfl

set_option maxHeartbeats 4000000 in
/-- The running result is written by no later operation before region 2 and is no array of region 2. -/
theorem W26_v27 : W26 m ρ c (Proc.devRef .tc main_v27) = W15 m ρ c (Proc.devRef .tc main_v27) := by
  simp (disch := decide) only [W26, W25, W24, W23, W22, W21, W20, W19, W18, W17, W16,
    hostOps2_1, hostOps2_2, hostOps2_3, hostOps2_4, hostOps2_5, hostOps2_6, hostOps2_7, hostOps2_8, hostOps2_9,
    hostOps2_10, hostOps2_11,
    after_cons, after_nil,
    nullary_result_ne', unary_result_ne', binary_result_ne', ternary_result_ne', quaternary_result_ne', reshape_result_ne']
theorem W27_v27 : W27 m ρ c (Proc.devRef .tc main_v27) = W15 m ρ c (Proc.devRef .tc main_v27) :=
  (W27_of_ne m ρ c main_v27 (by decide)).trans (W26_v27 m ρ c)

set_option maxHeartbeats 4000000 in
theorem W26_arg6 : W26 m ρ c (Proc.devRef .tc main_arg6) = m ((c : Thread nD τ).loc main_arg6) := by
  walk2
  exact W14_arg6 m ρ c
set_option maxHeartbeats 4000000 in
theorem W26_arg14 : W26 m ρ c (Proc.devRef .tc main_arg14) = m ((c : Thread nD τ).loc main_arg14) := by
  walk2
  exact W14_arg14 m ρ c
theorem W27_arg6 : W27 m ρ c (Proc.devRef .tc main_arg6) = m ((c : Thread nD τ).loc main_arg6) :=
  (W27_of_ne m ρ c main_arg6 (by decide)).trans (W26_arg6 m ρ c)
theorem W27_arg14 : W27 m ρ c (Proc.devRef .tc main_arg14) = m ((c : Thread nD τ).loc main_arg14) :=
  (W27_of_ne m ρ c main_arg14 (by decide)).trans (W26_arg14 m ρ c)
/-- Region 2's output array at its exit. -/
theorem W27_v44 : W27 m ρ c (Proc.devRef .tc main_v44) = (dat2 (V26 m ρ) c).arrAt 7 cfg2.N := W27_arr m ρ c 7

set_option maxHeartbeats 4000000 in
theorem entry1_h0 :
    V13 m ρ c main_v13 = padRows256 (takeFill (m ((c : Thread nD τ).loc main_arg0)) (pairRow0 (m ((c : Thread nD τ).loc main_arg1)))) := by
  show W13 m ρ c (Proc.devRef .tc main_v13) = _
  walk1
  rw [W1_arg0, W1_other m ρ c main_arg1 (by decide)]
  unfold padRows256 takeFill takeRows takeMask takeCol pairRow0
  simp only [TRef.toBuf, TRef.ofBuf, cast_eq]
  rfl

set_option maxHeartbeats 4000000 in
theorem entry1_d0 :
    V13 m ρ c main_v15 = padRows16 (degSlab0 (m ((c : Thread nD τ).loc main_arg3))) := by
  show W13 m ρ c (Proc.devRef .tc main_v15) = _
  walk1
  rw [W1_other m ρ c main_arg3 (by decide)]
  unfold padRows16 degSlab0
  simp only [TRef.toBuf, TRef.ofBuf, cast_eq]
  rfl

set_option maxHeartbeats 4000000 in
theorem entry1_h1 :
    V13 m ρ c main_v14 = padRows256 (takeFill (m ((c : Thread nD τ).loc main_arg0)) (pairRow1 (m ((c : Thread nD τ).loc main_arg1)))) := by
  show W13 m ρ c (Proc.devRef .tc main_v14) = _
  walk1
  rw [W1_arg0, W1_other m ρ c main_arg1 (by decide)]
  unfold padRows256 takeFill takeRows takeMask takeCol pairRow1
  simp only [TRef.toBuf, TRef.ofBuf, cast_eq]
  rfl

set_option maxHeartbeats 4000000 in
theorem entry1_d1 :
    V13 m ρ c main_v16 = padRows16 (degSlab1 (m ((c : Thread nD τ).loc main_arg3))) := by
  show W13 m ρ c (Proc.devRef .tc main_v16) = _
  walk1
  rw [W1_other m ρ c main_arg3 (by decide)]
  unfold padRows16 degSlab1
  simp only [TRef.toBuf, TRef.ofBuf, cast_eq]
  rfl

set_option maxHeartbeats 4000000 in
theorem entry1_wh :
    V13 m ρ c main_v1 = wTop (m ((c : Thread nD τ).loc main_arg9)) := by
  show W13 m ρ c (Proc.devRef .tc main_v1) = _
  walk1
  rw [W1_other m ρ c main_arg9 (by decide)]
  rfl

set_option maxHeartbeats 4000000 in
theorem entry1_wd :
    V13 m ρ c main_v2 = wBot (m ((c : Thread nD τ).loc main_arg9)) := by
  show W13 m ρ c (Proc.devRef .tc main_v2) = _
  walk1
  rw [W1_other m ρ c main_arg9 (by decide)]
  rfl

set_option maxHeartbeats 4000000 in
theorem entry1_b :
    V13 m ρ c main_arg10 = (m ((c : Thread nD τ).loc main_arg10)) := by
  show W13 m ρ c (Proc.devRef .tc main_arg10) = _
  walk1
  exact W1_other m ρ c main_arg10 (by decide)

set_option maxHeartbeats 4000000 in
theorem entry2_h0 :
    V26 m ρ c main_v40 = padRows256 (takeFill (m ((c : Thread nD τ).loc main_arg0)) (pairRow0 (m ((c : Thread nD τ).loc main_arg2)))) := by
  show W26 m ρ c (Proc.devRef .tc main_v40) = _
  walk2
  rw [W14_arg0, W14_arg2]
  unfold padRows256 takeFill takeRows takeMask takeCol pairRow0
  simp only [TRef.toBuf, TRef.ofBuf, cast_eq]
  rfl

set_option maxHeartbeats 4000000 in
theorem entry2_d0 :
    V26 m ρ c main_v42 = padRows16 (degSlab0 (m ((c : Thread nD τ).loc main_arg4))) := by
  show W26 m ρ c (Proc.devRef .tc main_v42) = _
  walk2
  rw [W14_arg4]
  unfold padRows16 degSlab0
  simp only [TRef.toBuf, TRef.ofBuf, cast_eq]
  rfl

set_option maxHeartbeats 4000000 in
theorem entry2_h1 :
    V26 m ρ c main_v41 = padRows256 (takeFill (m ((c : Thread nD τ).loc main_arg0)) (pairRow1 (m ((c : Thread nD τ).loc main_arg2)))) := by
  show W26 m ρ c (Proc.devRef .tc main_v41) = _
  walk2
  rw [W14_arg0, W14_arg2]
  unfold padRows256 takeFill takeRows takeMask takeCol pairRow1
  simp only [TRef.toBuf, TRef.ofBuf, cast_eq]
  rfl

set_option maxHeartbeats 4000000 in
theorem entry2_d1 :
    V26 m ρ c main_v43 = padRows16 (degSlab1 (m ((c : Thread nD τ).loc main_arg4))) := by
  show W26 m ρ c (Proc.devRef .tc main_v43) = _
  walk2
  rw [W14_arg4]
  unfold padRows16 degSlab1
  simp only [TRef.toBuf, TRef.ofBuf, cast_eq]
  rfl

set_option maxHeartbeats 4000000 in
theorem entry2_wh :
    V26 m ρ c main_v28 = wTop (m ((c : Thread nD τ).loc main_arg11)) := by
  show W26 m ρ c (Proc.devRef .tc main_v28) = _
  walk2
  rw [W14_arg11]
  rfl

set_option maxHeartbeats 4000000 in
theorem entry2_wd :
    V26 m ρ c main_v29 = wBot (m ((c : Thread nD τ).loc main_arg11)) := by
  show W26 m ρ c (Proc.devRef .tc main_v29) = _
  walk2
  rw [W14_arg11]
  rfl

set_option maxHeartbeats 4000000 in
theorem entry2_b :
    V26 m ρ c main_arg12 = (m ((c : Thread nD τ).loc main_arg12)) := by
  show W26 m ρ c (Proc.devRef .tc main_arg12) = _
  walk2
  exact W14_arg12 m ρ c

set_option maxHeartbeats 4000000 in
theorem result_val :
    W28 m ρ c (Proc.devRef .tc main_v54) = addf (addf ((dat0 (V0 m ρ) c).arrAt 3 cfg0.N) (keyTerm (m ((c : Thread nD τ).loc main_arg5)) (m ((c : Thread nD τ).loc main_arg13)) (dropPad ((dat1 (V13 m ρ) c).arrAt 7 cfg1.N)))) (keyTerm (m ((c : Thread nD τ).loc main_arg6)) (m ((c : Thread nD τ).loc main_arg14)) (dropPad ((dat2 (V26 m ρ) c).arrAt 7 cfg2.N))) := by
  simp (disch := decide) only [W28, hostOps3,
    after_cons, after_nil, nullary_result', unary_result', binary_result', ternary_result', quaternary_result', reshape_result',
    nullary_result_ne', unary_result_ne', binary_result_ne', ternary_result_ne', quaternary_result_ne', reshape_result_ne']
  rw [W27_v27, W27_v44, W27_arg6, W27_arg14, W15_v27]
  rfl

end Cert.KernelIdeal.Walk

end
-- ==== Proof.RefSide.lean ====
/-
  The reference program's stages, read as the whole-array functions of the specification.

  Three facts, each proved index by index on the extended reals:
  * the dense stage is `∑ₖ x[r,k]·w[k,j] + b[j]`;
  * for each of the two keys, the message stage is the product of two logistic gates.  The reference joins the
    gathered node rows (256 columns) and the degree codes (16 columns) into one 272-column array and multiplies it
    by the whole 272-row weight matrix; a sum over 272 joined columns is the sum over the first 256 (node rows
    against the top 256 weight rows) plus the sum over the last 16 (degree codes against the bottom 16 weight
    rows).  It then spells the logistic function as `1 · (1 / (1 + exp (-s)))`, which is `logistic s` by definition.
  Only commutative-monoid laws of `+` and `1 · a = a` are used; nothing is assumed finite.
-/
import proofs.«408056_j78039555768490_1_alg».proof.Proof.Gen.ReferenceIdeal.Read
import proofs.«408056_j78039555768490_1_alg».proof.Proof.HostTerms
import proofs.«408056_j78039555768490_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.RefSide

open Idealize.ShloMosaic Idealize.ShloMosaic.ValueIdx
open Cert.ReferenceIdeal Cert.ReferenceIdeal.Read Cert.KernelIdeal.HostT

/-- The f32 bit pattern `0x3F800000` denotes the number one. -/
theorem ofBits_one : Ideal.ofBits .f32 0x3F800000#32 = 1 := by
  simp [Ideal.ofBits, Ideal.ieee, -EReal.coe_mul]; norm_num

/-- One over (one plus the exponential of the negated argument) is the logistic function, by its definition. -/
theorem gate_scalar' (s : EReal) :
    FloatOps.hostDivf (F := Ideal) (φ := .f32) (FloatOps.ofBits .f32 0x3F800000#32)
        (FloatOps.addf (FloatOps.ofBits .f32 0x3F800000#32) (FloatOps.hostUnary .exp (FloatOps.hostNegf s))) = Ideal.logistic s := by
  rw [Ideal.ofBits_def, ofBits_one, Ideal.hostDivf_def, Ideal.addf_def, Ideal.hostUnary_exp_def, Ideal.hostNegf_def]
  rfl

/-- A row of the joined array against a column of the weight matrix.  The 272 columns are 256 + 16: on the first
    256 the joined array is its left piece and the weight row is a row of the top slice; on the last 16 the joined
    array is its right piece (column `k` of it sits at joined column `256 + k`) and the weight row is a row of the
    bottom slice.  So the sum splits into the two partial sums. -/
theorem dot_split (h : Shape.Concatenates [(⟨2, ![250000, 256]⟩ : Shape), (⟨2, ![250000, 16]⟩ : Shape)] (⟨2, ![250000, 272]⟩ : Shape) 1)
    (G : (⟨2, ![250000, 256]⟩ : Shape).Idx → EReal) (D : (⟨2, ![250000, 16]⟩ : Shape).Idx → EReal)
    (W : FVec Ideal (⟨2, ![272, 256]⟩ : Shape) .f32) (p : Fin 250000) (q : Fin 256) :
    (∑ k : Fin 272, concatenate (⟨2, ![250000, 272]⟩ : Shape) 1 [⟨(⟨2, ![250000, 256]⟩ : Shape), G⟩, ⟨(⟨2, ![250000, 16]⟩ : Shape), D⟩] h (ix2 p k) * W (ix2 k q))
      = (∑ k : Fin 256, G (ix2 p k) * wTop (F := Ideal) W (ix2 k q)) + ∑ k : Fin 16, D (ix2 p k) * wBot (F := Ideal) W (ix2 k q) := by
  -- a sum over `Fin (256 + 16)` is the sum over the first 256 positions plus the sum over the last 16
  have hs : ∀ f : Fin 272 → EReal, ∑ k, f k = (∑ k : Fin 256, f ⟨k.val, by omega⟩) + ∑ k : Fin 16, f ⟨256 + k.val, by omega⟩ :=
    fun f => Fin.sum_univ_add (a := 256) (b := 16) f
  rw [hs]
  congr 1
  · refine Finset.sum_congr rfl fun k _ => ?_
    congr 1
    · -- joined column `k < 256` lies in the left piece, at the same coordinates
      exact concatenate_pair_apply_left 1 G D h _ rfl (ix2 p k) (fun b => by match b with | ⟨0, _⟩ => rfl | ⟨1, _⟩ => rfl)
    · -- row `k` of the top slice is row `0 + k` of the matrix
      unfold wTop
      exact (extractStridedSlice_apply _ W _ (ix2 k q) _ (fun a => by match a with | ⟨0, _⟩ => exact (Nat.zero_add _).symm | ⟨1, _⟩ => exact (Nat.zero_add _).symm)).symm
  · refine Finset.sum_congr rfl fun k _ => ?_
    congr 1
    · -- joined column `256 + k` lies in the right piece, at column `k`
      exact concatenate_pair_apply_right 1 G D h _ rfl rfl (ix2 p k) (fun b hb => by match b, hb with | ⟨0, _⟩, _ => rfl | ⟨1, _⟩, hb => exact absurd rfl hb) (by show k.val + 256 = 256 + k.val; omega)
    · -- row `k` of the bottom slice is row `256 + k` of the matrix
      unfold wBot
      exact (extractStridedSlice_apply _ W _ (ix2 k q) _ (fun a => by match a with | ⟨0, _⟩ => rfl | ⟨1, _⟩ => exact (Nat.zero_add _).symm)).symm

/-- One gate of the reference at an index: the joined row against the weight column, plus the bias, through
    `1 / (1 + exp (-·))`, is the logistic function of the gate's argument (node part + degree part + bias). -/
theorem gate_at (h : Shape.Concatenates [(⟨2, ![250000, 256]⟩ : Shape), (⟨2, ![250000, 16]⟩ : Shape)] (⟨2, ![250000, 272]⟩ : Shape) 1)
    (G : (⟨2, ![250000, 256]⟩ : Shape).Idx → EReal) (D : (⟨2, ![250000, 16]⟩ : Shape).Idx → EReal)
    (W : FVec Ideal (⟨2, ![272, 256]⟩ : Shape) .f32) (b : FVec Ideal (⟨1, ![256]⟩ : Shape) .f32) (p : Fin 250000) (q : Fin 256) :
    FloatOps.hostDivf (F := Ideal) (φ := .f32) (FloatOps.ofBits .f32 0x3F800000#32)
        (FloatOps.addf (FloatOps.ofBits .f32 0x3F800000#32) (FloatOps.hostUnary .exp (FloatOps.hostNegf
          (FloatOps.addf (∑ k : Fin 272, concatenate (⟨2, ![250000, 272]⟩ : Shape) 1 [⟨(⟨2, ![250000, 256]⟩ : Shape), G⟩, ⟨(⟨2, ![250000, 16]⟩ : Shape), D⟩] h (ix2 p k) * W (ix2 k q))
            (b (ix1 q))))))
      = Ideal.logistic (Cert.Spec.gateArg G D (wTop (F := Ideal) W) (wBot (F := Ideal) W) b (ix2 p q)) := by
  rw [gate_scalar', Ideal.addf_def, dot_split]
  rfl

theorem dense_ref (x0 : FVec Ideal Cert.ReferenceIdeal.S50000x256 .f32) (x7 : FVec Ideal Cert.ReferenceIdeal.S256x256 .f32) (x8 : FVec Ideal Cert.ReferenceIdeal.S256 .f32) :
    val_main_v3 (F := Ideal) x0 x7 x8 = Cert.Spec.dense x0 x7 x8 := by
  funext i
  obtain ⟨p, q, rfl⟩ : ∃ (p : Fin 50000) (q : Fin 256), i = ix2 p q := ⟨i 0, i 1, eq_ix2 i⟩
  -- entry (p, q): the product's entry plus the bias, which two broadcasts carry from position q to (p, q)
  rw [val_main_v3_apply, val_main_v0_apply, val_main_v2_apply, val_main_v1_apply]
  -- term k of the product reads x at (p, k) and w at (k, q); the bias is read at q
  have e1 : ∀ k : Fin 256, lidx_main_v0 (ix2 p q) k = ix2 p k := fun k =>
    funext fun a => Fin.ext (by match a with | ⟨0, _⟩ => rfl | ⟨1, _⟩ => rfl)
  have e2 : ∀ k : Fin 256, ridx_main_v0 (ix2 p q) k = ix2 k q := fun k =>
    funext fun a => Fin.ext (by match a with | ⟨0, _⟩ => rfl | ⟨1, _⟩ => rfl)
  have e3 : idx_main_v1 (idx_main_v2 (ix2 p q)) = ix1 q :=
    funext fun a => Fin.ext (by match a with | ⟨0, _⟩ => rfl)
  simp only [e1, e2, e3]
  rfl

theorem msg_ref0 (x0 : FVec Ideal Cert.ReferenceIdeal.S50000x256 .f32) (x1 : IVec Cert.ReferenceIdeal.S2x250000 32) (x3 : FVec Ideal Cert.ReferenceIdeal.S2x250000x16 .f32) (x9 : FVec Ideal Cert.ReferenceIdeal.S272x256 .f32) (x10 : FVec Ideal Cert.ReferenceIdeal.S256 .f32) :
    val_main_v50 (F := Ideal) x0 x1 x3 x9 x10 = Cert.Spec.msg (val_main_v13 (F := Ideal) x0 x1) (val_main_v15 (F := Ideal) x3) (val_main_v36 (F := Ideal) x0 x1) (val_main_v38 (F := Ideal) x3) (wTop (F := Ideal) x9) (wBot (F := Ideal) x9) x10 := by
  funext i
  obtain ⟨p, q, rfl⟩ : ∃ (p : Fin 250000) (q : Fin 256), i = ix2 p q := ⟨i 0, i 1, eq_ix2 i⟩
  -- entry (p, q) of the message: (1 · first gate) · second gate, each gate 1 / (1 + exp (-(joined row · weight column + bias)))
  rw [val_main_v50_apply, val_main_v27_apply, val_main_v4_apply, val_main_cst_apply, val_main_v26_apply, val_main_v25_apply,
    val_main_cst_2_apply, val_main_v24_apply, val_main_v23_apply, val_main_cst_1_apply, val_main_v22_apply, val_main_v21_apply,
    val_main_v20_apply, val_main_v17_apply, val_main_v19_apply, val_main_v18_apply,
    val_main_v49_apply, val_main_v48_apply, val_main_cst_6_apply, val_main_v47_apply, val_main_v46_apply, val_main_cst_5_apply,
    val_main_v45_apply, val_main_v44_apply, val_main_v43_apply, val_main_v40_apply, val_main_v42_apply, val_main_v41_apply]
  -- the joined arrays, with their two pieces kept as unknown arrays
  unfold val_main_v16 val_main_v39
  generalize val_main_v13 (F := Ideal) x0 x1 = G0
  generalize val_main_v15 (F := Ideal) x3 = D0
  generalize val_main_v36 (F := Ideal) x0 x1 = G1
  generalize val_main_v38 (F := Ideal) x3 = D1
  -- term k of each product reads the joined array at (p, k) and the weights at (k, q); the bias is read at q
  have eL0 : ∀ k : Fin 272, lidx_main_v17 (ix2 p q) k = ix2 p k := fun k =>
    funext fun a => Fin.ext (by match a with | ⟨0, _⟩ => rfl | ⟨1, _⟩ => rfl)
  have eR0 : ∀ k : Fin 272, ridx_main_v17 (ix2 p q) k = ix2 k q := fun k =>
    funext fun a => Fin.ext (by match a with | ⟨0, _⟩ => rfl | ⟨1, _⟩ => rfl)
  have eB0 : idx_main_v18 (idx_main_v19 (ix2 p q)) = ix1 q :=
    funext fun a => Fin.ext (by match a with | ⟨0, _⟩ => rfl)
  have eL1 : ∀ k : Fin 272, lidx_main_v40 (ix2 p q) k = ix2 p k := fun k =>
    funext fun a => Fin.ext (by match a with | ⟨0, _⟩ => rfl | ⟨1, _⟩ => rfl)
  have eR1 : ∀ k : Fin 272, ridx_main_v40 (ix2 p q) k = ix2 k q := fun k =>
    funext fun a => Fin.ext (by match a with | ⟨0, _⟩ => rfl | ⟨1, _⟩ => rfl)
  have eB1 : idx_main_v41 (idx_main_v42 (ix2 p q)) = ix1 q :=
    funext fun a => Fin.ext (by match a with | ⟨0, _⟩ => rfl)
  simp only [eL0, eR0, eB0, eL1, eR1, eB1]
  -- each gate is the logistic function of its argument; the leading factor is one
  rw [gate_at, gate_at, Ideal.ofBits_def, ofBits_one, Ideal.mulf_def, Ideal.mulf_def, one_mul]
  rfl

theorem msg_ref1 (x0 : FVec Ideal Cert.ReferenceIdeal.S50000x256 .f32) (x2 : IVec Cert.ReferenceIdeal.S2x250000 32) (x4 : FVec Ideal Cert.ReferenceIdeal.S2x250000x16 .f32) (x11 : FVec Ideal Cert.ReferenceIdeal.S272x256 .f32) (x12 : FVec Ideal Cert.ReferenceIdeal.S256 .f32) :
    val_main_v106 (F := Ideal) x0 x2 x4 x11 x12 = Cert.Spec.msg (val_main_v69 (F := Ideal) x0 x2) (val_main_v71 (F := Ideal) x4) (val_main_v92 (F := Ideal) x0 x2) (val_main_v94 (F := Ideal) x4) (wTop (F := Ideal) x11) (wBot (F := Ideal) x11) x12 := by
  funext i
  obtain ⟨p, q, rfl⟩ : ∃ (p : Fin 250000) (q : Fin 256), i = ix2 p q := ⟨i 0, i 1, eq_ix2 i⟩
  -- entry (p, q) of the message: (1 · first gate) · second gate, each gate 1 / (1 + exp (-(joined row · weight column + bias)))
  rw [val_main_v106_apply, val_main_v83_apply, val_main_v60_apply, val_main_cst_9_apply, val_main_v82_apply, val_main_v81_apply,
    val_main_cst_13_apply, val_main_v80_apply, val_main_v79_apply, val_main_cst_12_apply, val_main_v78_apply, val_main_v77_apply,
    val_main_v76_apply, val_main_v73_apply, val_main_v75_apply, val_main_v74_apply,
    val_main_v105_apply, val_main_v104_apply, val_main_cst_17_apply, val_main_v103_apply, val_main_v102_apply, val_main_cst_16_apply,
    val_main_v101_apply, val_main_v100_apply, val_main_v99_apply, val_main_v96_apply, val_main_v98_apply, val_main_v97_apply]
  -- the joined arrays, with their two pieces kept as unknown arrays
  unfold val_main_v72 val_main_v95
  generalize val_main_v69 (F := Ideal) x0 x2 = G0
  generalize val_main_v71 (F := Ideal) x4 = D0
  generalize val_main_v92 (F := Ideal) x0 x2 = G1
  generalize val_main_v94 (F := Ideal) x4 = D1
  -- term k of each product reads the joined array at (p, k) and the weights at (k, q); the bias is read at q
  have eL0 : ∀ k : Fin 272, lidx_main_v73 (ix2 p q) k = ix2 p k := fun k =>
    funext fun a => Fin.ext (by match a with | ⟨0, _⟩ => rfl | ⟨1, _⟩ => rfl)
  have eR0 : ∀ k : Fin 272, ridx_main_v73 (ix2 p q) k = ix2 k q := fun k =>
    funext fun a => Fin.ext (by match a with | ⟨0, _⟩ => rfl | ⟨1, _⟩ => rfl)
  have eB0 : idx_main_v74 (idx_main_v75 (ix2 p q)) = ix1 q :=
    funext fun a => Fin.ext (by match a with | ⟨0, _⟩ => rfl)
  have eL1 : ∀ k : Fin 272, lidx_main_v96 (ix2 p q) k = ix2 p k := fun k =>
    funext fun a => Fin.ext (by match a with | ⟨0, _⟩ => rfl | ⟨1, _⟩ => rfl)
  have eR1 : ∀ k : Fin 272, ridx_main_v96 (ix2 p q) k = ix2 k q := fun k =>
    funext fun a => Fin.ext (by match a with | ⟨0, _⟩ => rfl | ⟨1, _⟩ => rfl)
  have eB1 : idx_main_v97 (idx_main_v98 (ix2 p q)) = ix1 q :=
    funext fun a => Fin.ext (by match a with | ⟨0, _⟩ => rfl)
  simp only [eL0, eR0, eB0, eL1, eR1, eB1]
  -- each gate is the logistic function of its argument; the leading factor is one
  rw [gate_at, gate_at, Ideal.ofBits_def, ofBits_one, Ideal.mulf_def, Ideal.mulf_def, one_mul]
  rfl

end Cert.RefSide

end
-- ==== Proof.PreDecode.lean ====
/-
  Index ranges, read off the precondition and carried to the gather.

  The precondition ends in two conjuncts saying that every entry of the two [2, 250000] pair tables is, read as a
  signed integer, at least 0 and below 50000.  Here that is read back from the printed predicate; it is carried to
  row 0 and row 1 of a table (a slice then a reshape reads entry (r, e) of the table); and it is used to show that
  the guarded row gather is the plain one: with every index in [0, 50000) no index is turned round from the end,
  every edge passes the test 0 ≤ index ≤ 49999, and so no row is replaced by the fill word.
-/
import proofs.«408056_j78039555768490_1_alg».proof.Pre_finite_inputs
import proofs.«408056_j78039555768490_1_alg».proof.Proof.Gen.Pre_finite_inputs
import proofs.«408056_j78039555768490_1_alg».proof.Proof.HostTerms
import Idealize.ShloMosaic.Lib.Pipeline.Value
import Idealize.ShloMosaic.Lib.ValueIdx
import Idealize.ShloMosaic.Lib.ReduceAll
import Idealize.ShloMosaic.Lib.StableHlo.Predicate

set_option maxRecDepth 16384

noncomputable section

namespace Cert.PreDecode

open Idealize.ShloMosaic Idealize.ShloMosaic.ValueIdx
open Cert.KernelIdeal.HostT

/-! ## Words: the three constants read signed, and what the comparisons say of a word in [0, 50000) -/

private theorem toInt_c0 : (0#32 : BitVec 32).toInt = 0 := by decide
private theorem toInt_c49999 : (49999#32 : BitVec 32).toInt = 49999 := by decide
private theorem toInt_c50000 : (50000#32 : BitVec 32).toInt = 50000 := by decide

/-- `0 ≤ a` and `a < 50000` both testing true put the word in [0, 50000). -/
private theorem range_of_word (a : BitVec 32)
    (h : IntOp.andi (IntOp.cmpi .sge a 0#32) (IntOp.cmpi .slt a 50000#32) = 1#1) : 0 ≤ a.toInt ∧ a.toInt < 50000 := by
  obtain ⟨h0, h1⟩ := IntOp.andi_eq_one.1 h
  rw [IntOp.cmpi_sge, toInt_c0] at h0
  rw [IntOp.cmpi_slt, toInt_c50000] at h1
  exact ⟨h0, h1⟩

/-- A word in [0, 50000) is not negative, so the turn-round (`a + 50000` when `a < 0`) leaves it alone. -/
private theorem col_word (a : BitVec 32) (h : 0 ≤ a.toInt ∧ a.toInt < 50000) :
    Scalar.select (IntOp.cmpi .slt a 0#32) (IntOp.addi a 50000#32) a = a := by
  have hn : ¬ IntOp.cmpi .slt a 0#32 = 1#1 := by rw [IntOp.cmpi_slt, toInt_c0]; omega
  rw [eq_zero_of_ne_one hn]
  exact select_zero _ _

/-- A word in [0, 50000) passes the test `0 ≤ a ∧ a ≤ 49999`. -/
private theorem mask_word (a : BitVec 32) (h : 0 ≤ a.toInt ∧ a.toInt < 50000) :
    IntOp.andi (IntOp.cmpi .sge a 0#32) (IntOp.cmpi .sle a 49999#32) = 1#1 := by
  refine IntOp.andi_eq_one.2 ⟨?_, ?_⟩
  · rw [IntOp.cmpi_sge, toInt_c0]; exact h.1
  · rw [IntOp.cmpi_sle, toInt_c49999]; omega

/-! ## An and-reduction of ones is one -/

/-- A left fold by `and` from 1 over entries that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l (fun n hn => h n (List.mem_cons_of_mem _ hn))

/-- A reduction by `and` from the constant 1 of an array whose entries are all 1 is 1 at every result index. -/
private theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-! ## The precondition's last two conjuncts, read back -/

private instance : Subsingleton Cert.Pre_finite_inputs.S_.Idx := ⟨fun a b => funext fun d => d.elim0⟩

/-- One table's conjunct: the and-reduction over both axes of `0 ≤ p ∧ p < 50000` being 1 puts every entry in range. -/
private theorem table_range (p : IVec Cert.Pre_finite_inputs.S2x250000 32)
    (hb : Cert.Pre_finite_inputs.S_.BroadcastsInDim Cert.Pre_finite_inputs.S2x250000 (![] : Fin 0 → Fin Cert.Pre_finite_inputs.S2x250000.rank))
    (hr : Cert.Pre_finite_inputs.S2x250000.ReducesTo [0, 1] Cert.Pre_finite_inputs.S_) (hu : 0 < Cert.Pre_finite_inputs.S_.numel)
    (h : Host.reduce IntOp.andi
        (andi (cmpi .sge p (broadcastInDim Cert.Pre_finite_inputs.S2x250000 ![] hb (constantI Cert.Pre_finite_inputs.S_ 32 0#32)))
          (cmpi .slt p (broadcastInDim Cert.Pre_finite_inputs.S2x250000 ![] hb (constantI Cert.Pre_finite_inputs.S_ 32 50000#32))))
        (constantI Cert.Pre_finite_inputs.S_ 1 1#1) hr hu ix0 = 1#1) (i : Cert.Pre_finite_inputs.S2x250000.Idx) :
    0 ≤ (p i).toInt ∧ (p i).toInt < 50000 :=
  range_of_word (p i) (Host.reduce_andi_all _ _ hr hu ix0 h i)

/-- The last part of the printed predicate being 1 gives both tables' ranges (its other conjuncts are not needed). -/
private theorem part3_range {F : FTy → Type} [FloatOps F] (a1 a2 : IVec Cert.Pre_finite_inputs.S2x250000 32)
    (v48 : IVec Cert.Pre_finite_inputs.S_ 1) (v49 v50 : FVec F Cert.Pre_finite_inputs.S1 .f32)
    (h : Cert.Pre_finite_inputs.fn_part3 (F := F) a1 a2 v48 v49 v50 ix0 = 1#1) :
    (∀ i : Cert.Pre_finite_inputs.S2x250000.Idx, 0 ≤ (a1 i).toInt ∧ (a1 i).toInt < 50000)
      ∧ (∀ i : Cert.Pre_finite_inputs.S2x250000.Idx, 0 ≤ (a2 i).toInt ∧ (a2 i).toInt < 50000) := by
  unfold Cert.Pre_finite_inputs.fn_part3 at h
  dsimp only at h
  obtain ⟨h60, h66⟩ := IntOp.andi_eq_one.1 h
  obtain ⟨-, h59⟩ := IntOp.andi_eq_one.1 h60
  exact ⟨fun i => table_range a1 _ _ _ h59 i, fun i => table_range a2 _ _ _ h66 i⟩

theorem range_of_pre {F : FTy → Type} [FloatOps F] (x0 : FVec F Cert.Pre_finite_inputs.S50000x256 .f32) (x1 x2 : IVec Cert.Pre_finite_inputs.S2x250000 32) (x3 x4 : FVec F Cert.Pre_finite_inputs.S2x250000x16 .f32) (x5 x6 : IVec Cert.Pre_finite_inputs.S250000 32) (x7 : FVec F Cert.Pre_finite_inputs.S256x256 .f32) (x8 : FVec F Cert.Pre_finite_inputs.S256 .f32) (x9 : FVec F Cert.Pre_finite_inputs.S272x256 .f32) (x10 : FVec F Cert.Pre_finite_inputs.S256 .f32) (x11 : FVec F Cert.Pre_finite_inputs.S272x256 .f32) (x12 : FVec F Cert.Pre_finite_inputs.S256 .f32) (x13 x14 : FVec F Cert.Pre_finite_inputs.S1 .f32)
    (h : Cert.Pre_finite_inputs.fn (F := F) x0 x1 x2 x3 x4 x5 x6 x7 x8 x9 x10 x11 x12 x13 x14 = fun _ => 1#1) :
    (∀ i : Cert.Pre_finite_inputs.S2x250000.Idx, 0 ≤ (x1 i).toInt ∧ (x1 i).toInt < 50000) ∧ (∀ i : Cert.Pre_finite_inputs.S2x250000.Idx, 0 ≤ (x2 i).toInt ∧ (x2 i).toInt < 50000) := by
  have e : Cert.Pre_finite_inputs.fn (F := F) x0 x1 x2 x3 x4 x5 x6 x7 x8 x9 x10 x11 x12 x13 x14 ix0 = 1#1 := congrFun h ix0
  unfold Cert.Pre_finite_inputs.fn at e
  dsimp only at e
  unfold Cert.Pre_finite_inputs.fn_part1 at e
  dsimp only at e
  unfold Cert.Pre_finite_inputs.fn_part2 at e
  dsimp only at e
  exact part3_range x1 x2 _ _ _ e

/-! ## A row of a pair table reads the table -/

/-- Entry `a` of row 0 is entry (0, a) of the table: the reshape keeps the row-major position, the slice starts at (0, 0). -/
private theorem pairRow0_apply (p : IVec Cert.KernelIdeal.S2x250000 32) (a : Fin 250000) :
    pairRow0 p (ix1 a) = p (ix2 (0 : Fin 2) a) := by
  unfold pairRow0
  refine (shapeCast_apply _ _ (ix1 a) (ix2 (0 : Fin 1) a) ?_).trans ?_
  · rw [Shape.rowMajor_val_two, Shape.rowMajor_val_one]
    show 0 * 250000 + a.val = a.val
    omega
  · exact extractStridedSlice_apply _ _ _ (ix2 (0 : Fin 1) a) (ix2 (0 : Fin 2) a)
      (fun c => match c with
        | ⟨0, _⟩ => rfl
        | ⟨1, _⟩ => by show a.val = 0 + a.val; omega)

/-- Entry `a` of row 1 is entry (1, a) of the table: the slice starts at (1, 0). -/
private theorem pairRow1_apply (p : IVec Cert.KernelIdeal.S2x250000 32) (a : Fin 250000) :
    pairRow1 p (ix1 a) = p (ix2 (1 : Fin 2) a) := by
  unfold pairRow1
  refine (shapeCast_apply _ _ (ix1 a) (ix2 (0 : Fin 1) a) ?_).trans ?_
  · rw [Shape.rowMajor_val_two, Shape.rowMajor_val_one]
    show 0 * 250000 + a.val = a.val
    omega
  · exact extractStridedSlice_apply _ _ _ (ix2 (0 : Fin 1) a) (ix2 (1 : Fin 2) a)
      (fun c => match c with
        | ⟨0, _⟩ => rfl
        | ⟨1, _⟩ => by show a.val = 0 + a.val; omega)

theorem pairRow0_range (p : IVec Cert.KernelIdeal.S2x250000 32) (h : ∀ i : Cert.KernelIdeal.S2x250000.Idx, 0 ≤ (p i).toInt ∧ (p i).toInt < 50000) (e : Cert.KernelIdeal.S250000.Idx) :
    0 ≤ (pairRow0 p e).toInt ∧ (pairRow0 p e).toInt < 50000 := by
  obtain ⟨a, rfl⟩ : ∃ a : Fin 250000, e = ix1 a := ⟨e 0, eq_ix1 e⟩
  rw [pairRow0_apply]
  exact h _

theorem pairRow1_range (p : IVec Cert.KernelIdeal.S2x250000 32) (h : ∀ i : Cert.KernelIdeal.S2x250000.Idx, 0 ≤ (p i).toInt ∧ (p i).toInt < 50000) (e : Cert.KernelIdeal.S250000.Idx) :
    0 ≤ (pairRow1 p e).toInt ∧ (pairRow1 p e).toInt < 50000 := by
  obtain ⟨a, rfl⟩ : ∃ a : Fin 250000, e = ix1 a := ⟨e 0, eq_ix1 e⟩
  rw [pairRow1_apply]
  exact h _

/-! ## With every index in range the guarded gather is the plain gather -/

/-- Entry (a, 0) of the start-index column is index `a` itself. -/
private theorem takeCol_apply (p : IVec Cert.KernelIdeal.S250000 32)
    (hp : ∀ e : Cert.KernelIdeal.S250000.Idx, 0 ≤ (p e).toInt ∧ (p e).toInt < 50000) (a : Fin 250000) (b : Fin 1) :
    takeCol p (ix2 a b) = p (ix1 a) := by
  unfold takeCol
  refine (broadcastInDim_apply _ _ _ (ix2 a b) (ix1 a) (fun c => match c with | ⟨0, _⟩ => rfl)).trans ?_
  exact col_word (p (ix1 a)) (hp (ix1 a))

/-- Every edge passes the range test. -/
private theorem takeMask_one (p : IVec Cert.KernelIdeal.S250000 32)
    (hp : ∀ e : Cert.KernelIdeal.S250000.Idx, 0 ≤ (p e).toInt ∧ (p e).toInt < 50000) (e : Cert.KernelIdeal.S250000.Idx) :
    takeMask p e = 1#1 := by
  unfold takeMask
  refine reduce_andi_one _ _ _ _ rfl (fun i => ?_) e
  obtain ⟨a, b, rfl⟩ : ∃ (a : Fin 250000) (b : Fin 1), i = ix2 a b := ⟨i 0, i 1, eq_ix2 i⟩
  show IntOp.andi (IntOp.cmpi .sge (takeCol p (ix2 a b)) 0#32) (IntOp.cmpi .sle (takeCol p (ix2 a b)) 49999#32) = 1#1
  rw [takeCol_apply p hp]
  exact mask_word _ (hp _)

theorem takeFill_eq_takeRows {F : FTy → Type} [FloatOps F] (x : FVec F Cert.KernelIdeal.S50000x256 .f32) (p : IVec Cert.KernelIdeal.S250000 32) (hp : ∀ e : Cert.KernelIdeal.S250000.Idx, 0 ≤ (p e).toInt ∧ (p e).toInt < 50000) :
    takeFill x p = takeRows x p := by
  funext j
  unfold takeFill
  show Scalar.select (takeMask p _) (takeRows x p j) _ = takeRows x p j
  rw [takeMask_one p hp]
  exact select_one _ _

end Cert.PreDecode

end
-- ==== Proof.PadSlice.lean ====
/-
  Two families of facts about the arrays the kernel's program prepares around its launches.

  First: appending 2000 rows to every per-edge array, forming the messages of all 252000 rows and then dropping the
  2000 appended rows gives exactly the messages of the original 250000 rows.  Row `e < 250000` of an extended array is
  row `e` of the original, and entry `(e, j)` of the message is a product of two logistic gates whose arguments are
  sums over row `e` of the edge arrays alone; so nothing in the appended rows is ever read.

  Second: the operands the kernel's program builds on the host (a row of the pair table turned into start indices
  and the node-feature rows gathered there, a slab of the degree codes, one key's scaled scatter-sum) are the same
  compositions of the same operations on the same operands as the corresponding stages of the reference program;
  the two sides differ only in the names under which the two programs list their shapes and index maps.
-/
import proofs.«408056_j78039555768490_1_alg».proof.Proof.Gen.ReferenceIdeal.Read
import proofs.«408056_j78039555768490_1_alg».proof.Proof.HostTerms
import proofs.«408056_j78039555768490_1_alg».proof.Proof.Spec
import Idealize.ShloMosaic.Lib.Pipeline.Value
import Idealize.ShloMosaic.Lib.ValueIdx
import Idealize.ShloMosaic.Lib.KernelVsHost

set_option maxRecDepth 16384

noncomputable section

namespace Cert.PadSlice

open Idealize.ShloMosaic Idealize.ShloMosaic.ValueIdx
open Cert.KernelIdeal.HostT

/-- Row `r` of the `[252000, 256]` extension, when `r` is the number of a row `e` of the original, is row `e`: the
    extension puts nothing before the original rows and nothing between them. -/
theorem padRows256_row (h : FVec Ideal Cert.KernelIdeal.S250000x256 .f32) (r : Fin 252000) (e : Fin 250000)
    (hr : r.val = e.val) (k : Fin 256) : padRows256 (F := Ideal) h (ix2 r k) = h (ix2 e k) := by
  unfold padRows256
  exact pad_apply_of_inside _ _ _ h _ _ _ (ix2 r k) (ix2 e k) (by
    intro a
    match a with
    | ⟨0, _⟩ => show r.val = 0 + e.val * (0 + 1); omega
    | ⟨1, _⟩ => show k.val = 0 + k.val * (0 + 1); omega)

/-- The same for the `[252000, 16]` extension of a `[250000, 16]` array. -/
theorem padRows16_row (d : FVec Ideal Cert.KernelIdeal.S250000x16 .f32) (r : Fin 252000) (e : Fin 250000)
    (hr : r.val = e.val) (k : Fin 16) : padRows16 (F := Ideal) d (ix2 r k) = d (ix2 e k) := by
  unfold padRows16
  exact pad_apply_of_inside _ _ _ d _ _ _ (ix2 r k) (ix2 e k) (by
    intro a
    match a with
    | ⟨0, _⟩ => show r.val = 0 + e.val * (0 + 1); omega
    | ⟨1, _⟩ => show k.val = 0 + k.val * (0 + 1); omega)

/-- A gate's argument at `(r, j)` over the extended arrays is the argument at `(e, j)` over the originals when row
    `r` is row `e`: both sums run over that one row, term by term equal, and the bias entry is the same. -/
theorem gateArg_padRows (h : FVec Ideal Cert.KernelIdeal.S250000x256 .f32) (d : FVec Ideal Cert.KernelIdeal.S250000x16 .f32)
    (wh : FVec Ideal Cert.KernelIdeal.S256x256 .f32) (wd : FVec Ideal Cert.KernelIdeal.S16x256 .f32)
    (b : FVec Ideal Cert.KernelIdeal.S256 .f32)
    (i : (⟨2, ![252000, 256]⟩ : Shape).Idx) (i' : (⟨2, ![250000, 256]⟩ : Shape).Idx)
    (hrow : (i 0).val = (i' 0).val) (hcol : i 1 = i' 1) :
    Cert.Spec.gateArg (padRows256 (F := Ideal) h) (padRows16 (F := Ideal) d) wh wd b i
      = Cert.Spec.gateArg h d wh wd b i' := by
  unfold Cert.Spec.gateArg
  simp only [padRows256_row h (i 0) (i' 0) hrow, padRows16_row d (i 0) (i' 0) hrow, hcol]

theorem dropPad_msg (h0 h1 : FVec Ideal Cert.KernelIdeal.S250000x256 .f32) (d0 d1 : FVec Ideal Cert.KernelIdeal.S250000x16 .f32) (wh : FVec Ideal Cert.KernelIdeal.S256x256 .f32) (wd : FVec Ideal Cert.KernelIdeal.S16x256 .f32) (b : FVec Ideal Cert.KernelIdeal.S256 .f32) :
    dropPad (F := Ideal) (Cert.Spec.msg (padRows256 (F := Ideal) h0) (padRows16 (F := Ideal) d0) (padRows256 (F := Ideal) h1) (padRows16 (F := Ideal) d1) wh wd b) = Cert.Spec.msg h0 d0 h1 d1 wh wd b := by
  funext i
  obtain ⟨e, j, rfl⟩ : ∃ (e : Fin 250000) (j : Fin 256), i = ix2 e j := ⟨i 0, i 1, eq_ix2 i⟩
  have he : e.val < 252000 := by omega
  unfold dropPad
  -- entry (e, j) of the first 250000 rows is entry (e, j) of the 252000-row array
  refine (extractStridedSlice_apply ![0, 0] _ _ (ix2 e j) (ix2 (⟨e.val, he⟩ : Fin 252000) j) (by
    intro a
    match a with
    | ⟨0, _⟩ => show e.val = 0 + e.val; omega
    | ⟨1, _⟩ => show j.val = 0 + j.val; omega)).trans ?_
  -- a message entry is a product of two gates, and each gate's argument reads row e only
  unfold Cert.Spec.msg
  rw [gateArg_padRows h0 d0 wh wd b (ix2 (⟨e.val, he⟩ : Fin 252000) j) (ix2 e j) rfl rfl,
    gateArg_padRows h1 d1 wh wd b (ix2 (⟨e.val, he⟩ : Fin 252000) j) (ix2 e j) rfl rfl]

theorem takeRows_row0_ref {F : FTy → Type} [FloatOps F] (x0 : FVec F Cert.KernelIdeal.S50000x256 .f32) (x1 : IVec Cert.KernelIdeal.S2x250000 32) :
    takeRows x0 (pairRow0 x1) = Cert.ReferenceIdeal.Read.val_main_v13 (F := F) x0 x1 := by
  unfold takeRows takeCol pairRow0 Cert.ReferenceIdeal.Read.val_main_v13 Cert.ReferenceIdeal.Read.val_main_v12 Cert.ReferenceIdeal.Read.val_main_v11 Cert.ReferenceIdeal.Read.val_main_v8 Cert.ReferenceIdeal.Read.val_main_v10 Cert.ReferenceIdeal.Read.val_main_v7 Cert.ReferenceIdeal.Read.val_main_v9 Cert.ReferenceIdeal.Read.val_main_v6 Cert.ReferenceIdeal.Read.val_main_v5 Cert.ReferenceIdeal.Read.val_main_c Cert.ReferenceIdeal.Read.val_main_c_0
  rfl

theorem takeRows_row1_ref {F : FTy → Type} [FloatOps F] (x0 : FVec F Cert.KernelIdeal.S50000x256 .f32) (x1 : IVec Cert.KernelIdeal.S2x250000 32) :
    takeRows x0 (pairRow1 x1) = Cert.ReferenceIdeal.Read.val_main_v36 (F := F) x0 x1 := by
  unfold takeRows takeCol pairRow1 Cert.ReferenceIdeal.Read.val_main_v36 Cert.ReferenceIdeal.Read.val_main_v35 Cert.ReferenceIdeal.Read.val_main_v34 Cert.ReferenceIdeal.Read.val_main_v31 Cert.ReferenceIdeal.Read.val_main_v33 Cert.ReferenceIdeal.Read.val_main_v30 Cert.ReferenceIdeal.Read.val_main_v32 Cert.ReferenceIdeal.Read.val_main_v29 Cert.ReferenceIdeal.Read.val_main_v28 Cert.ReferenceIdeal.Read.val_main_c_3 Cert.ReferenceIdeal.Read.val_main_c_4
  rfl

theorem takeRows_row0_ref' {F : FTy → Type} [FloatOps F] (x0 : FVec F Cert.KernelIdeal.S50000x256 .f32) (x2 : IVec Cert.KernelIdeal.S2x250000 32) :
    takeRows x0 (pairRow0 x2) = Cert.ReferenceIdeal.Read.val_main_v69 (F := F) x0 x2 := by
  unfold takeRows takeCol pairRow0 Cert.ReferenceIdeal.Read.val_main_v69 Cert.ReferenceIdeal.Read.val_main_v68 Cert.ReferenceIdeal.Read.val_main_v67 Cert.ReferenceIdeal.Read.val_main_v64 Cert.ReferenceIdeal.Read.val_main_v66 Cert.ReferenceIdeal.Read.val_main_v63 Cert.ReferenceIdeal.Read.val_main_v65 Cert.ReferenceIdeal.Read.val_main_v62 Cert.ReferenceIdeal.Read.val_main_v61 Cert.ReferenceIdeal.Read.val_main_c_10 Cert.ReferenceIdeal.Read.val_main_c_11
  rfl

theorem takeRows_row1_ref' {F : FTy → Type} [FloatOps F] (x0 : FVec F Cert.KernelIdeal.S50000x256 .f32) (x2 : IVec Cert.KernelIdeal.S2x250000 32) :
    takeRows x0 (pairRow1 x2) = Cert.ReferenceIdeal.Read.val_main_v92 (F := F) x0 x2 := by
  unfold takeRows takeCol pairRow1 Cert.ReferenceIdeal.Read.val_main_v92 Cert.ReferenceIdeal.Read.val_main_v91 Cert.ReferenceIdeal.Read.val_main_v90 Cert.ReferenceIdeal.Read.val_main_v87 Cert.ReferenceIdeal.Read.val_main_v89 Cert.ReferenceIdeal.Read.val_main_v86 Cert.ReferenceIdeal.Read.val_main_v88 Cert.ReferenceIdeal.Read.val_main_v85 Cert.ReferenceIdeal.Read.val_main_v84 Cert.ReferenceIdeal.Read.val_main_c_14 Cert.ReferenceIdeal.Read.val_main_c_15
  rfl

theorem degSlab0_ref {F : FTy → Type} [FloatOps F] (x3 : FVec F Cert.KernelIdeal.S2x250000x16 .f32) :
    degSlab0 x3 = Cert.ReferenceIdeal.Read.val_main_v15 (F := F) x3 := by
  unfold degSlab0 Cert.ReferenceIdeal.Read.val_main_v15 Cert.ReferenceIdeal.Read.val_main_v14
  rfl

theorem degSlab1_ref {F : FTy → Type} [FloatOps F] (x3 : FVec F Cert.KernelIdeal.S2x250000x16 .f32) :
    degSlab1 x3 = Cert.ReferenceIdeal.Read.val_main_v38 (F := F) x3 := by
  unfold degSlab1 Cert.ReferenceIdeal.Read.val_main_v38 Cert.ReferenceIdeal.Read.val_main_v37
  rfl

theorem degSlab0_ref' {F : FTy → Type} [FloatOps F] (x4 : FVec F Cert.KernelIdeal.S2x250000x16 .f32) :
    degSlab0 x4 = Cert.ReferenceIdeal.Read.val_main_v71 (F := F) x4 := by
  unfold degSlab0 Cert.ReferenceIdeal.Read.val_main_v71 Cert.ReferenceIdeal.Read.val_main_v70
  rfl

theorem degSlab1_ref' {F : FTy → Type} [FloatOps F] (x4 : FVec F Cert.KernelIdeal.S2x250000x16 .f32) :
    degSlab1 x4 = Cert.ReferenceIdeal.Read.val_main_v94 (F := F) x4 := by
  unfold degSlab1 Cert.ReferenceIdeal.Read.val_main_v94 Cert.ReferenceIdeal.Read.val_main_v93
  rfl

theorem keyTerm_ref0 {F : FTy → Type} [FloatOps F] (x0 : FVec F Cert.KernelIdeal.S50000x256 .f32) (x1 : IVec Cert.KernelIdeal.S2x250000 32) (x3 : FVec F Cert.KernelIdeal.S2x250000x16 .f32) (x5 : IVec Cert.KernelIdeal.S250000 32) (x9 : FVec F Cert.KernelIdeal.S272x256 .f32) (x10 : FVec F Cert.KernelIdeal.S256 .f32) (x13 : FVec F Cert.KernelIdeal.S1 .f32) :
    keyTerm x5 x13 (Cert.ReferenceIdeal.Read.val_main_v50 (F := F) x0 x1 x3 x9 x10) = Cert.ReferenceIdeal.Read.val_main_v58 (F := F) x0 x1 x3 x5 x9 x10 x13 := by
  unfold Cert.ReferenceIdeal.Read.val_main_v58 Cert.ReferenceIdeal.Read.val_main_v53
  generalize Cert.ReferenceIdeal.Read.val_main_v50 (F := F) x0 x1 x3 x9 x10 = t
  unfold keyTerm Cert.ReferenceIdeal.Read.val_main_v57 Cert.ReferenceIdeal.Read.val_main_v56 Cert.ReferenceIdeal.Read.val_main_v55 Cert.ReferenceIdeal.Read.val_main_v54 Cert.ReferenceIdeal.Read.val_main_cst_8 Cert.ReferenceIdeal.Read.val_main_v52 Cert.ReferenceIdeal.Read.val_main_v51 Cert.ReferenceIdeal.Read.val_main_cst_7
  rfl

theorem keyTerm_ref1 {F : FTy → Type} [FloatOps F] (x0 : FVec F Cert.KernelIdeal.S50000x256 .f32) (x2 : IVec Cert.KernelIdeal.S2x250000 32) (x4 : FVec F Cert.KernelIdeal.S2x250000x16 .f32) (x6 : IVec Cert.KernelIdeal.S250000 32) (x11 : FVec F Cert.KernelIdeal.S272x256 .f32) (x12 : FVec F Cert.KernelIdeal.S256 .f32) (x14 : FVec F Cert.KernelIdeal.S1 .f32) :
    keyTerm x6 x14 (Cert.ReferenceIdeal.Read.val_main_v106 (F := F) x0 x2 x4 x11 x12) = Cert.ReferenceIdeal.Read.val_main_v114 (F := F) x0 x2 x4 x6 x11 x12 x14 := by
  unfold Cert.ReferenceIdeal.Read.val_main_v114 Cert.ReferenceIdeal.Read.val_main_v109
  generalize Cert.ReferenceIdeal.Read.val_main_v106 (F := F) x0 x2 x4 x11 x12 = t
  unfold keyTerm Cert.ReferenceIdeal.Read.val_main_v113 Cert.ReferenceIdeal.Read.val_main_v112 Cert.ReferenceIdeal.Read.val_main_v111 Cert.ReferenceIdeal.Read.val_main_v110 Cert.ReferenceIdeal.Read.val_main_cst_19 Cert.ReferenceIdeal.Read.val_main_v108 Cert.ReferenceIdeal.Read.val_main_v107 Cert.ReferenceIdeal.Read.val_main_cst_18
  rfl

end Cert.PadSlice

end
-- ==== Proof.lean ====
/-
  The certificate's proof.

  Both programs compute, for a graph of 50000 nodes with 256 features and two keys of 250000 edges each,
      h · W_lin + b_lin  +  (1 + ε₀) · S₀  +  (1 + ε₁) · S₁,
  where Sₖ adds into each node's row the messages of the edges that target it, and an edge's message is the product
  of two logistic gates, one per end point: σ(h[p] · W[0:256] + deg · W[256:272] + b).

  The kernel computes the dense layer and the messages in three launches over row blocks, the gathers, the padding of
  the edge arrays to a whole number of blocks and the scatter-additions on the host; the reference does everything on
  the host, with one matrix product over the concatenation [h[p], deg].  On the extended reals the two agree index by
  index: a sum over the 272 joined columns is the sum over the first 256 plus the sum over the last 16; the logistic
  function is 1 / (1 + e⁻ˣ) in both spellings; the rows appended for padding are dropped again; and the gathers agree
  because, under the precondition that every pair index lies in [0, 50000), no edge reads the fill word the kernel's
  gather keeps for an index out of range.  The scatter-additions and the scalings are the same operations applied to
  equal arrays.  Only commutativity and associativity of the sums are used, so finiteness of the inputs is not.
-/
import proofs.«408056_j78039555768490_1_alg».proof.Defs
import proofs.«408056_j78039555768490_1_alg».proof.Proof.Gen.Kernel
import proofs.«408056_j78039555768490_1_alg».proof.Proof.Gen.Kernel.Frame
import proofs.«408056_j78039555768490_1_alg».proof.Proof.Gen.KernelIdeal
import proofs.«408056_j78039555768490_1_alg».proof.Proof.Gen.KernelIdeal.Frame
import proofs.«408056_j78039555768490_1_alg».proof.Proof.Gen.ReferenceIdeal
import proofs.«408056_j78039555768490_1_alg».proof.Proof.Gen.ReferenceIdeal.Run
import proofs.«408056_j78039555768490_1_alg».proof.Proof.Gen.ReferenceIdeal.Read
import proofs.«408056_j78039555768490_1_alg».proof.Proof.Gen.Pre_finite_inputs
import proofs.«408056_j78039555768490_1_alg».proof.Proof.KernelRun
import proofs.«408056_j78039555768490_1_alg».proof.Proof.Region0
import proofs.«408056_j78039555768490_1_alg».proof.Proof.Region1
import proofs.«408056_j78039555768490_1_alg».proof.Proof.Region2
import proofs.«408056_j78039555768490_1_alg».proof.Proof.Walk
import proofs.«408056_j78039555768490_1_alg».proof.Proof.RefSide
import proofs.«408056_j78039555768490_1_alg».proof.Proof.PreDecode
import proofs.«408056_j78039555768490_1_alg».proof.Proof.PadSlice
import Idealize.ShloMosaic.Adequacy
import Idealize.ShloMosaic.Init

set_option maxRecDepth 16384

noncomputable section

namespace Cert.Proof

open Idealize.ShloMosaic Idealize.ShloMosaic.TcCoe Idealize.SL.Sem

/-! ## The kernel's result array is the reference's function of the arguments -/

section KernelValue

open Cert.KernelIdeal Cert.KernelIdeal.Gen Cert.KernelIdeal.HostT Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxHeartbeats 1000000 in
/-- With every pair index in range, what the last stretch of host operations leaves in the result buffer is the
    reference's last stage of the launch contents: region by region the launches compute the dense layer and the
    messages of the padded edge arrays, whose first 250000 rows are the reference's messages. -/
theorem kernel_result
    (h1 : ∀ i : Cert.KernelIdeal.S2x250000.Idx, 0 ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 50000)
    (h2 : ∀ i : Cert.KernelIdeal.S2x250000.Idx, 0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 50000) :
    W28 (F := Ideal) m ρ c (Proc.devRef .tc main_v54)
      = val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  rw [Cert.KernelIdeal.Walk.result_val]
  rw [Cert.KernelIdeal.RegionVal.region0_val, Cert.KernelIdeal.RegionVal.region1_val, Cert.KernelIdeal.RegionVal.region2_val]
  rw [Cert.KernelIdeal.Walk.entry1_h0, Cert.KernelIdeal.Walk.entry1_d0, Cert.KernelIdeal.Walk.entry1_h1,
    Cert.KernelIdeal.Walk.entry1_d1, Cert.KernelIdeal.Walk.entry1_wh, Cert.KernelIdeal.Walk.entry1_wd,
    Cert.KernelIdeal.Walk.entry1_b]
  rw [Cert.KernelIdeal.Walk.entry2_h0, Cert.KernelIdeal.Walk.entry2_d0, Cert.KernelIdeal.Walk.entry2_h1,
    Cert.KernelIdeal.Walk.entry2_d1, Cert.KernelIdeal.Walk.entry2_wh, Cert.KernelIdeal.Walk.entry2_wd,
    Cert.KernelIdeal.Walk.entry2_b]
  rw [Cert.PreDecode.takeFill_eq_takeRows _ _ (Cert.PreDecode.pairRow0_range _ h1),
    Cert.PreDecode.takeFill_eq_takeRows _ _ (Cert.PreDecode.pairRow1_range _ h1),
    Cert.PreDecode.takeFill_eq_takeRows _ _ (Cert.PreDecode.pairRow0_range _ h2),
    Cert.PreDecode.takeFill_eq_takeRows _ _ (Cert.PreDecode.pairRow1_range _ h2)]
  rw [Cert.PadSlice.dropPad_msg, Cert.PadSlice.dropPad_msg]
  rw [Cert.PadSlice.takeRows_row0_ref, Cert.PadSlice.takeRows_row1_ref, Cert.PadSlice.degSlab0_ref, Cert.PadSlice.degSlab1_ref,
    Cert.PadSlice.takeRows_row0_ref', Cert.PadSlice.takeRows_row1_ref', Cert.PadSlice.degSlab0_ref', Cert.PadSlice.degSlab1_ref']
  rw [← Cert.RefSide.msg_ref0, ← Cert.RefSide.msg_ref1]
  rw [Cert.PadSlice.keyTerm_ref0, Cert.PadSlice.keyTerm_ref1]
  rw [show (V0 (F := Ideal) m ρ c main_arg0) = (m ((c.tc : Thread Cert.KernelIdeal.nD Cert.KernelIdeal.τ).loc Cert.KernelIdeal.main_arg0)) from rfl,
    show (V0 (F := Ideal) m ρ c main_arg7) = (m ((c.tc : Thread Cert.KernelIdeal.nD Cert.KernelIdeal.τ).loc Cert.KernelIdeal.main_arg7)) from rfl,
    show (V0 (F := Ideal) m ρ c main_arg8) = (m ((c.tc : Thread Cert.KernelIdeal.nD Cert.KernelIdeal.τ).loc Cert.KernelIdeal.main_arg8)) from rfl]
  rw [← Cert.RefSide.dense_ref]
  rfl

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's last stage of the (agreeing) argument arrays. -/
theorem algebraic : Cert.algebraic_KernelIdeal_ReferenceIdeal := by
  intro m ρ m' ρ' hpre hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨(h c).1.trans ?_, (h c).2⟩)
      (Cert.KernelIdeal.Gen.run_result (F := Ideal) m ρ)
    obtain ⟨r1, r2⟩ := Cert.PreDecode.range_of_pre _ _ _ _ _ _ _ _ _ _ _ _ _ _ _ (hpre c)
    exact kernel_result m ρ c r1 r2
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v115_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
